-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x160x160 : Shape := ⟨4, ![32, 128, 160, 160]⟩
abbrev S32x128x1024 : Shape := ⟨3, ![32, 128, 1024]⟩
abbrev S32x1024 : Shape := ⟨2, ![32, 1024]⟩
abbrev S_ : Shape := ⟨0, ![]⟩

class Facts : Prop where
  bcast_S_S32x128x160x160 : S_.BroadcastsInDim S32x128x160x160 (![] : Fin 0 → Fin S32x128x160x160.rank)
  reducesTo_S32x128x160x160_S_d0_1_2_3 : S32x128x160x160.ReducesTo [0, 1, 2, 3] S_
  h_S_ : 0 < S_.numel
  bcast_S_S32x128x1024 : S_.BroadcastsInDim S32x128x1024 (![] : Fin 0 → Fin S32x128x1024.rank)
  reducesTo_S32x128x1024_S_d0_1_2 : S32x128x1024.ReducesTo [0, 1, 2] S_
  bcast_S_S32x1024 : S_.BroadcastsInDim S32x1024 (![] : Fin 0 → Fin S32x1024.rank)
  reducesTo_S32x1024_S_d0_1 : S32x1024.ReducesTo [0, 1] S_

variable [Facts]

def fn_part1 {F : FTy → Type} [FloatOps F] (main_arg2 : IVec S32x1024 32) (main_v13 : IVec S_ 1) (main_v15 : IVec S32x1024 1) (main_c_5 : IVec S_ 32) : IVec S_ 1 :=
  let main_v16 : IVec S32x1024 32 := broadcastInDim S32x1024 ![] bcast_S_S32x1024 main_c_5
  let main_v17 : IVec S32x1024 1 := cmpi .slt main_arg2 main_v16
  let main_v18 : IVec S32x1024 1 := andi main_v15 main_v17
  let main_c_6 : IVec S_ 1 := constantI S_ 1 1#1
  let main_v19 : IVec S_ 1 := (fun x v => Host.reduce IntOp.andi x v reducesTo_S32x1024_S_d0_1 h_S_) main_v18 main_c_6
  let main_v20 : IVec S_ 1 := andi main_v13 main_v19
  main_v20

def fn {F : FTy → Type} [FloatOps F] (main_arg0 : FVec F S32x128x160x160 .f32) (main_arg1 : FVec F S32x128x1024 .f32) (main_arg2 : IVec S32x1024 32) (main_arg3 : FVec F S32x1024 .f32) : IVec S_ 1 :=
  let main_v0 : FVec F S32x128x160x160 .f32 := Host.absf main_arg0
  let main_cst : FVec F S_ .f32 := constant S_ .f32 0x7F800000#32
  let main_v1 : FVec F S32x128x160x160 .f32 := broadcastInDim S32x128x160x160 ![] bcast_S_S32x128x160x160 main_cst
  let main_v2 : IVec S32x128x160x160 1 := cmpf .olt main_v0 main_v1
  let main_c : IVec S_ 1 := constantI S_ 1 1#1
  let main_v3 : IVec S_ 1 := (fun x v => Host.reduce IntOp.andi x v reducesTo_S32x128x160x160_S_d0_1_2_3 h_S_) main_v2 main_c
  let main_v4 : FVec F S32x128x1024 .f32 := Host.absf main_arg1
  let main_cst_0 : FVec F S_ .f32 := constant S_ .f32 0x7F800000#32
  let main_v5 : FVec F S32x128x1024 .f32 := broadcastInDim S32x128x1024 ![] bcast_S_S32x128x1024 main_cst_0
  let main_v6 : IVec S32x128x1024 1 := cmpf .olt main_v4 main_v5
  let main_c_1 : IVec S_ 1 := constantI S_ 1 1#1
  let main_v7 : IVec S_ 1 := (fun x v => Host.reduce IntOp.andi x v reducesTo_S32x128x1024_S_d0_1_2 h_S_) main_v6 main_c_1
  let main_v8 : IVec S_ 1 := andi main_v3 main_v7
  let main_v9 : FVec F S32x1024 .f32 := Host.absf main_arg3
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_c_4 : IVec S_ 32 := constantI S_ 32 0#32
  let main_v14 : IVec S32x1024 32 := broadcastInDim S32x1024 ![] bcast_S_S32x1024 main_c_4
  let main_v15 : IVec S32x1024 1 := cmpi .sge main_arg2 main_v14
  let main_c_5 : IVec S_ 32 := constantI S_ 32 25600#32
  fn_part1 (F := F) main_arg2 main_v13 main_v15 main_c_5
-- ==== Kernel.lean ====
abbrev S32x128x160x160 : Shape := ⟨4, ![32, 128, 160, 160]⟩
abbrev S32x128x1024 : Shape := ⟨3, ![32, 128, 1024]⟩
abbrev S32x1024 : Shape := ⟨2, ![32, 1024]⟩
abbrev S32x128x25600 : Shape := ⟨3, ![32, 128, 25600]⟩
abbrev S32x1024x1 : Shape := ⟨3, ![32, 1024, 1]⟩
abbrev S32x1x1024 : Shape := ⟨3, ![32, 1, 1024]⟩
abbrev S32x1x128 : Shape := ⟨3, ![32, 1, 128]⟩
abbrev S1x128x12800 : Shape := ⟨3, ![1, 128, 12800]⟩
abbrev S1x1024x1 : Shape := ⟨3, ![1, 1024, 1]⟩
abbrev S1x1x1024 : Shape := ⟨3, ![1, 1, 1024]⟩
abbrev S1x128x1024 : Shape := ⟨3, ![1, 128, 1024]⟩
abbrev S1x1x128 : Shape := ⟨3, ![1, 1, 128]⟩
abbrev S128x1024 : Shape := ⟨2, ![128, 1024]⟩
abbrev S1x12800 : Shape := ⟨2, ![1, 12800]⟩
abbrev S128x12800 : Shape := ⟨2, ![128, 12800]⟩
abbrev S1x512x1 : Shape := ⟨3, ![1, 512, 1]⟩
abbrev S512x1 : Shape := ⟨2, ![512, 1]⟩
abbrev S512x12800 : Shape := ⟨2, ![512, 12800]⟩
abbrev S128x512 : Shape := ⟨2, ![128, 512]⟩
abbrev S1024 : Shape := ⟨1, ![1024]⟩
abbrev S1x1024 : Shape := ⟨2, ![1, 1024]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩

abbrev nBuf : Space → Nat
  | .hbm => 21
  | .vmem => 11
  | .smem => 0
  | _ => 0

abbrev bufTy : (tb : Table) → Fin (tcTables nBuf tb) → BufTy
  | .hbm, ⟨0, _⟩ => ⟨S32x128x160x160, .f32⟩
  | .hbm, ⟨1, _⟩ => ⟨S32x128x1024, .f32⟩
  | .hbm, ⟨2, _⟩ => ⟨S32x1024, .i32⟩
  | .hbm, ⟨3, _⟩ => ⟨S32x1024, .f32⟩
  | .hbm, ⟨4, _⟩ => ⟨S32x128x25600, .f32⟩
  | .hbm, ⟨5, _⟩ => ⟨S32x1024x1, .i32⟩
  | .hbm, ⟨6, _⟩ => ⟨S32x1x1024, .f32⟩
  | .hbm, ⟨7, _⟩ => ⟨S32x1x128, .f32⟩
  | .hbm, ⟨8, _⟩ => ⟨S32x1x1, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x128x12800, .f32⟩
  | .local _ .vmem, ⟨1, _⟩ => ⟨S1x128x12800, .f32⟩
  | .local _ .vmem, ⟨2, _⟩ => ⟨S1x1024x1, .i32⟩
  | .local _ .vmem, ⟨3, _⟩ => ⟨S1x1024x1, .i32⟩
  | .local _ .vmem, ⟨4, _⟩ => ⟨S1x1x1024, .f32⟩
  | .local _ .vmem, ⟨5, _⟩ => ⟨S1x1x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x1x128, .f32⟩
  | .local _ .vmem, ⟨9, _⟩ => ⟨S1x1x128, .f32⟩
  | .local _ .vmem, ⟨10, _⟩ => ⟨S128x1024, .f32⟩
  | _, _ => ⟨S32x128x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v38 : BitVec 1 := Scalar.cmpi .eq arg1 c1_i32
  let v39 : BitVec 32 := Scalar.extui v38
  let c0_i32_17 : BitVec 32 := 0#32
  let v40 : BitVec 1 := Scalar.cmpi .ne v39 c0_i32_17
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x128x160x160_S32x128x25600 : S32x128x160x160.ShapeCasts S32x128x25600
  shapeCasts_S32x1024_S32x1024x1 : S32x1024.ShapeCasts S32x1024x1
  shapeCasts_S32x1024_S32x1x1024 : S32x1024.ShapeCasts S32x1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  iota_S1x12800_d1_w32 : S1x12800.Iotas .tc 32 [1]
  inb_S1x128x12800_S1x128x12800_0_0_0 : ∀ a, (![0, 0, 0] : Fin 3 → Nat) a + S1x128x12800.size a ≤ S1x128x12800.size a
  h_S1x128x12800 : 0 < S1x128x12800.numel
  shapeCasts_S1x128x12800_S128x12800 : S1x128x12800.ShapeCasts S128x12800
  bitsLt_bf16_f32 : FTy.bits .bf16 < FTy.bits .f32
  inb_S1x1024x1_S1x512x1_0_0_0 : ∀ a, (![0, 0, 0] : Fin 3 → Nat) a + S1x512x1.size a ≤ S1x1024x1.size a
  h_S1x512x1 : 0 < S1x512x1.numel
  shapeCasts_S1x512x1_S512x1 : S1x512x1.ShapeCasts S512x1
  broadcasts_S512x1_S512x12800 : S512x1.Broadcasts S512x12800
  broadcasts_S1x12800_S512x12800 : S1x12800.Broadcasts S512x12800
  natLt_1_32 : 1 < 32
  inb_S128x1024_S128x512_0_0 : ∀ a, (![0, 0] : Fin 2 → Nat) a + S128x512.size a ≤ S128x1024.size a
  h_S128x512 : 0 < S128x512.numel
  shapeCasts_S128x512_S128x512 : S128x512.ShapeCasts S128x512
  inb_S1x1024x1_S1x512x1_0_512_0 : ∀ a, (![0, 512, 0] : Fin 3 → Nat) a + S1x512x1.size a ≤ S1x1024x1.size a
  inb_S128x1024_S128x512_0_512 : ∀ a, (![0, 512] : Fin 2 → Nat) a + S128x512.size a ≤ S128x1024.size a
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S128x1024 : S1x1024.Broadcasts S128x1024
  reduces_S128x1024_S128 : S128x1024.Reduces [1] S128
  shapeCasts_S128_S128x1 : S128.ShapeCasts S128x1
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  reducesTo_S32x1024_S_d0_1 : S32x1024.ReducesTo [0, 1] S_
  dot_S128x12800_S512x12800_S128x512_1_1_0_0_n_n_wf : DotDims.WF S128x12800 S512x12800 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x12800.size a ≤ S32x128x25600.size a
  hwx0_0 : ∀ i : grid0.Coords, EltTy.bits .f32 = 32 ∨ (Rect.block (s := S32x128x25600) S1x128x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S32x1024x1.size a
  hwx0_1 : ∀ i : grid0.Coords, EltTy.bits .i32 = 32 ∨ (Rect.block (s := S32x1024x1) S1x1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .f32 = 32 ∨ (Rect.block (s := S32x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S32x128x1024.size a
  hwx0_3 : ∀ i : grid0.Coords, EltTy.bits .f32 = 32 ∨ (Rect.block (s := S32x128x1024) S1x128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)

variable [Facts₀]

def dot_S128x12800_S512x12800_S128x512_1_1_0_0_n_n : DotDims S128x12800 S512x12800 S128x512 where
  lhsContracting := [1]
  rhsContracting := [1]
  lhsNonContracting := [0]
  rhsNonContracting := [0]
  lhsBatch := []
  rhsBatch := []
  wf := dot_S128x12800_S512x12800_S128x512_1_1_0_0_n_n_wf

abbrev win0_0 : Pipeline.Window sig grid0 :=
  Pipeline.Window.ofSpec (Memref.whole main_v0) S1x128x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x128x160x160 : Shape := ⟨4, ![32, 128, 160, 160]⟩
abbrev S32x128x1024 : Shape := ⟨3, ![32, 128, 1024]⟩
abbrev S32x1024 : Shape := ⟨2, ![32, 1024]⟩
abbrev S32x128x25600 : Shape := ⟨3, ![32, 128, 25600]⟩
abbrev S32x25600x128 : Shape := ⟨3, ![32, 25600, 128]⟩
abbrev S32x1024x1 : Shape := ⟨3, ![32, 1024, 1]⟩
abbrev S_ : Shape := ⟨0, ![]⟩
abbrev S1 : Shape := ⟨1, ![1]⟩
abbrev S1x1x1 : Shape := ⟨3, ![1, 1, 1]⟩
abbrev S32x1024x128 : Shape := ⟨3, ![32, 1024, 128]⟩
abbrev S32x1x1024 : Shape := ⟨3, ![32, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x128x160x160, .f32⟩
  | .hbm, ⟨1, _⟩ => ⟨S32x128x1024, .f32⟩
  | .hbm, ⟨2, _⟩ => ⟨S32x1024, .i32⟩
  | .hbm, ⟨3, _⟩ => ⟨S32x1024, .f32⟩
  | .hbm, ⟨4, _⟩ => ⟨S32x128x25600, .f32⟩
  | .hbm, ⟨5, _⟩ => ⟨S32x25600x128, .f32⟩
  | .hbm, ⟨6, _⟩ => ⟨S32x1024x1, .i32⟩
  | .hbm, ⟨7, _⟩ => ⟨S_, .i32⟩
  | .hbm, ⟨8, _⟩ => ⟨S32x1024x1, .i32⟩
  | .hbm, ⟨9, _⟩ => ⟨S32x1024x1, .i1⟩
  | .hbm, ⟨10, _⟩ => ⟨S_, .i32⟩
  | .hbm, ⟨11, _⟩ => ⟨S32x1024x1, .i32⟩
  | .hbm, ⟨12, _⟩ => ⟨S32x1024x1, .i32⟩
  | .hbm, ⟨13, _⟩ => ⟨S32x1024x1, .i32⟩
  | .hbm, ⟨14, _⟩ => ⟨S1, .i32⟩
  | .hbm, ⟨15, _⟩ => ⟨S_, .i32⟩
  | .hbm, ⟨16, _⟩ => ⟨S32x1024x1, .i32⟩
  | .hbm, ⟨17, _⟩ => ⟨S32x1024x1, .i1⟩
  | .hbm, ⟨18, _⟩ => ⟨S1x1x1, .i32⟩
  | .hbm, ⟨19, _⟩ => ⟨S32x1024x1, .i32⟩
  | .hbm, ⟨20, _⟩ => ⟨S32x1024x1, .i1⟩
  | .hbm, ⟨21, _⟩ => ⟨S32x1024x1, .i1⟩
  | .hbm, ⟨22, _⟩ => ⟨S_, .i1⟩
  | .hbm, ⟨23, _⟩ => ⟨S32x1024, .i1⟩
  | .hbm, ⟨24, _⟩ => ⟨S32x1024x128, .f32⟩
  | .hbm, ⟨25, _⟩ => ⟨S32x1024x128, .i1⟩
  | .hbm, ⟨26, _⟩ => ⟨S_, .f32⟩
  | .hbm, ⟨27, _⟩ => ⟨S32x1024x128, .f32⟩
  | .hbm, ⟨28, _⟩ => ⟨S32x1024x128, .f32⟩
  | .hbm, ⟨29, _⟩ => ⟨S32x128x1024, .f32⟩
  | .hbm, ⟨30, _⟩ => ⟨S32x1x1024, .f32⟩
  | .hbm, ⟨31, _⟩ => ⟨S32x128x1024, .f32⟩
  | .hbm, ⟨32, _⟩ => ⟨S32x128x1024, .f32⟩
  | .hbm, ⟨33, _⟩ => ⟨S32x128x1024, .f32⟩
  | .hbm, ⟨34, _⟩ => ⟨S32x128x1024, .f32⟩
  | .hbm, ⟨35, _⟩ => ⟨S32x128x1024, .f32⟩
  | .hbm, ⟨36, _⟩ => ⟨S32x128x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S32x128x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩

abbrev nD : Nat := 1
abbrev τ : Topo := Topo.v7x

variable {F : FTy → Type} [FloatOps F]

class Facts₀ : Prop where
  shapeCasts_S32x128x160x160_S32x128x25600 : S32x128x160x160.ShapeCasts S32x128x25600
  transposes_S32x128x25600_S32x25600x128_0_2_1 : S32x128x25600.Transposes [0, 2, 1] S32x25600x128
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S1_S1x1x1_2 : S1.BroadcastsInDim S1x1x1 (![2] : Fin 1 → Fin S1x1x1.rank)
  bcast_S1x1x1_S32x1024x1_0_1_2 : S1x1x1.BroadcastsInDim S32x1024x1 (![0, 1, 2] : Fin 3 → Fin S32x1024x1.rank)
  reducesTo_S32x1024x1_S32x1024_d2 : S32x1024x1.ReducesTo [2] S32x1024
  h_S_ : 0 < S_.numel
  bcast_S32x1024_S32x1024x128_0_1 : S32x1024.BroadcastsInDim S32x1024x128 (![0, 1] : Fin 2 → Fin S32x1024x128.rank)
  bcast_S_S32x1024x128 : S_.BroadcastsInDim S32x1024x128 (![] : Fin 0 → Fin S32x1024x128.rank)
  transposes_S32x1024x128_S32x128x1024_0_2_1 : S32x1024x128.Transposes [0, 2, 1] S32x128x1024
  shapeCasts_S32x1024_S32x1x1024 : S32x1024.ShapeCasts S32x1x1024
  bcast_S32x1x1024_S32x128x1024_0_1_2 : S32x1x1024.BroadcastsInDim S32x128x1024 (![0, 1, 2] : Fin 3 → Fin S32x128x1024.rank)
  reducesTo_S32x128x1024_S_d0_1_2 : S32x128x1024.ReducesTo [0, 1, 2] S_
  reducesTo_S32x1x1024_S_d0_1_2 : S32x1x1024.ReducesTo [0, 1, 2] S_
  gather_S32x25600x128_S32x1024x1_S32x1024x128_2_1_0_0_1_2_11128_wf : GatherDims.WF S32x25600x128 S32x1024x1 S32x1024x128 [2] [1] [0] [1] [0] 2 ![1, 1, 128]

variable [Facts₀]

def gather_S32x25600x128_S32x1024x1_S32x1024x128_2_1_0_0_1_2_11128 : GatherDims S32x25600x128 S32x1024x1 S32x1024x128 where
  offsetDims := [2]
  collapsedSliceDims := [1]
  operandBatchingDims := [0]
  startIndicesBatchingDims := [0]
  startIndexMap := [1]
  indexVectorDim := 2
  sliceSizes := ![1, 1, 128]
  wf := gather_S32x25600x128_S32x1024x1_S32x1024x128_2_1_0_0_1_2_11128_wf

class Facts : Prop extends Facts₀ where

variable [Facts]
-- ==== Proof.PreRange.lean ====
/-
  THE PRECONDITION GIVES THE INDEX RANGE. The precondition is a conjunction of four all-quantified tests; its last
  conjunct says of every position word w that 0 ≤ w and w < 25600, both read signed. A word in [0, n) signed,
  n < 2³¹, is below n unsigned: so every position word's unsigned value is a position of the flattened axis.
-/
import proofs.«429631_j50156628083336_3_alg».proof.Pre_finite_inputs
import Idealize.ShloMosaic.Lib.ReduceAll
import Idealize.ShloMosaic.Lib.ValueIdx
import Idealize.ShloMosaic.Lib.StableHlo.Predicate
import Idealize.ShloMosaic.PureOps.Ideal

noncomputable section

namespace Cert.PreRange

open Idealize.ShloMosaic Cert.Pre_finite_inputs

/-- The scalar shape has one index. -/
instance : Subsingleton S_.Idx := ⟨fun a b => funext fun d => d.elim0⟩

/-- A word in [0, n) signed, n < 2³¹, is below n unsigned. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have z : (0#32 : BitVec 32).toInt = 0 := by decide
  rw [z] at h0
  have hw := w.isLt
  rw [BitVec.toInt_eq_toNat_cond] at h0 h1
  split at h0 <;> omega

/-- Every position word the precondition admits is, unsigned, a position of the flattened axis. -/
theorem idx_lt_of_pre {F : FTy → Type} [FloatOps F] [Cert.Pre_finite_inputs.Facts]
    (a0 : FVec F S32x128x160x160 .f32) (a1 : FVec F S32x128x1024 .f32) (a2 : IVec S32x1024 32) (a3 : FVec F S32x1024 .f32)
    (h : Cert.Pre_finite_inputs.fn (F := F) a0 a1 a2 a3 = fun _ => 1#1) :
    ∀ i : S32x1024.Idx, (a2 i).toNat < 25600 := by
  intro i
  have e := congrFun h ValueIdx.ix0
  dsimp only [fn, fn_part1] at e
  -- the outer conjunction: the three finiteness tests, then the range test
  have hr := (IntOp.andi_eq_one.1 e).2
  -- the range test holds at every index
  have hi := Host.reduce_andi_all _ _ _ _ _ hr i
  obtain ⟨hge, hlt⟩ := IntOp.andi_eq_one.1 hi
  simp only [cmpi, broadcastInDim, constantI] at hge hlt
  exact toNat_lt_of_signed (a2 i) 25600 (by decide) hge hlt

/-- The same over the extended reals. -/
theorem idx_lt_of_pre_ideal [Cert.Pre_finite_inputs.Facts]
    (a0 : FVec Ideal S32x128x160x160 .f32) (a1 : FVec Ideal S32x128x1024 .f32) (a2 : IVec S32x1024 32) (a3 : FVec Ideal S32x1024 .f32)
    (h : Cert.Pre_finite_inputs.fn (F := Ideal) a0 a1 a2 a3 = fun _ => 1#1) :
    ∀ i : S32x1024.Idx, (a2 i).toNat < 25600 :=
  idx_lt_of_pre a0 a1 a2 a3 h

end Cert.PreRange

end
-- ==== Proof.Spec.lean ====
/-
  The value both programs compute, as ONE function of the argument arrays over the extended reals.

  With `pf` the prediction array with its two spatial axes flattened (32 samples × 128 channels × 25600
  positions), `tgt` the target (32 × 128 × 1024), `idx` the 32 × 1024 position words and `mask` the
  32 × 1024 weights:

      loss = ( Σ_b Σ_p Σ_q | tgt[b,p,q]·mask[b,q] − pf[b,p,idx[b,q]]·mask[b,q] | )
             / ( (Σ_b Σ_q mask[b,q]) · 128 + ε ) · 1

  The gathered entry `pf[b,p,idx[b,q]]` is written as a total function of the word: the entry at the
  word's unsigned value when that is below 25600, and 0 otherwise. A sum of products with a 0/1 selector
  over all 25600 positions is that function of the word for every word; a clamped, wrapped and
  range-tested take is that function when the word, read signed, lies in [0, 25600).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Predictions, spatial axes flattened. -/
abbrev SPf : Shape := ⟨3, ![32, 128, 25600]⟩
/-- Targets. -/
abbrev STg : Shape := ⟨3, ![32, 128, 1024]⟩
/-- Position words, and the mask. -/
abbrev SIx : Shape := ⟨2, ![32, 1024]⟩

/-- The prediction of sample `b`, channel `p` at the position word `idx[b,q]` names: the entry at the word's
    unsigned value when that is a position, else 0. -/
def pick (pf : SPf.Idx → EReal) (idx : SIx.Idx → BitVec 32) (b : Fin 32) (p : Fin 128) (q : Fin 1024) : EReal :=
  if h : (idx (ix2 b q)).toNat < 25600 then pf (ix3 b p ⟨(idx (ix2 b q)).toNat, h⟩) else 0

/-- What a 0/1 selector over the `n` positions `base, …, base + n − 1` picks out of `x` for the position `v`:
    the entry at `v − base` when `v` is one of those positions, else 0. -/
def sel {n : ℕ} (x : Fin n → EReal) (base v : ℕ) : EReal :=
  if h : base ≤ v ∧ v < base + n then x ⟨v - base, by omega⟩ else 0

/-- A sum of products with the selector of `v` is that pick: every product but the one at `v` is `· * 0`, which is
    0 for every extended real, and the one at `v` is `· * 1`. -/
theorem sum_mul_ite_eq_sel {n : ℕ} (x : Fin n → EReal) (base v : ℕ) :
    ∑ j : Fin n, x j * (if v = base + j.val then (1 : EReal) else 0) = sel x base v := by
  unfold sel
  split
  · next h =>
    rw [Finset.sum_eq_single (⟨v - base, by omega⟩ : Fin n)]
    · rw [if_pos (by show v = base + (v - base); omega), mul_one]
    · intro j _ hj
      rw [if_neg (fun e => hj (Fin.ext (by show j.val = v - base; omega))), mul_zero]
    · intro hn; exact absurd (Finset.mem_univ _) hn
  · next h =>
    refine Finset.sum_eq_zero fun j _ => ?_
    rw [if_neg (fun e => h ⟨by omega, by have := j.isLt; omega⟩), mul_zero]

/-- One masked absolute difference. -/
def term (pf : SPf.Idx → EReal) (tgt : STg.Idx → EReal) (idx : SIx.Idx → BitVec 32) (mask : SIx.Idx → EReal)
    (b : Fin 32) (p : Fin 128) (q : Fin 1024) : EReal :=
  max (tgt (ix3 b p q) * mask (ix2 b q) - pick pf idx b p q * mask (ix2 b q))
    (-(tgt (ix3 b p q) * mask (ix2 b q) - pick pf idx b p q * mask (ix2 b q)))

/-- The numerator of one sample: its masked absolute differences summed over channels and positions. -/
def numerAt (pf : SPf.Idx → EReal) (tgt : STg.Idx → EReal) (idx : SIx.Idx → BitVec 32) (mask : SIx.Idx → EReal)
    (b : Fin 32) : EReal :=
  ∑ p : Fin 128, ∑ q : Fin 1024, term pf tgt idx mask b p q

/-- The numerator: all samples. -/
def numer (pf : SPf.Idx → EReal) (tgt : STg.Idx → EReal) (idx : SIx.Idx → BitVec 32) (mask : SIx.Idx → EReal) : EReal :=
  ∑ b : Fin 32, numerAt pf tgt idx mask b

/-- The mask's total weight. -/
def maskSum (mask : SIx.Idx → EReal) : EReal := ∑ b : Fin 32, ∑ q : Fin 1024, mask (ix2 b q)

/-- The loss: numerator over (total weight × 128 channels + ε), times the unit loss weight. The three
    float literals are kept as the words both programs carry. -/
def loss (pf : SPf.Idx → EReal) (tgt : STg.Idx → EReal) (idx : SIx.Idx → BitVec 32) (mask : SIx.Idx → EReal) : EReal :=
  Ideal.div (numer pf tgt idx mask)
      (maskSum mask * Ideal.ofBits .f32 0x43000000#32 + Ideal.ofBits .f32 0x3727C5AC#32)
    * Ideal.ofBits .f32 0x3F800000#32

end Cert.Spec

end
-- ==== Proof.RefValue.lean ====
/-
  The reference's result is the specification's loss.

  Under the hypothesis that every position word, read unsigned, is below 25600: the word read signed is the same
  number, so the wrap `select (w < 0) (w + 25600) w` is `w`, the range test `0 ≤ w ∧ w ≤ 25599` is true at every
  word, its conjunction over the unit axis is true, and the gather's clamp is the identity. The batched gather of the
  transposed prediction [32, 25600, 128] at the start indices [32, 1024, 1] reads, at (b, q, p), the operand at
  (b, clamp(start[b, q, 0]), p); with the select on a true bit and the two transposes this is the flattened
  prediction at (b, p, word[b, q]) — the specification's `pick`. The array of absolute differences is then the
  specification's `term` at every (b, p, q); the sum over all indices of a rank-3 array is the triple sum over its
  coordinates, which gives the numerator, and the sum of the mask reshaped to [32, 1, 1024] is the mask's total
  weight. The zero the two sums start from is the real 0; the other three float literals stay as the words both
  sides carry.
-/
import proofs.«429631_j50156628083336_3_alg».proof.Proof.RefRead
import proofs.«429631_j50156628083336_3_alg».proof.Proof.Spec
import Idealize.ShloMosaic.Lib.ValueIdx
import Idealize.ShloMosaic.PureOps.Ideal.Laws
import Idealize.ShloMosaic.PureOps.Reduce
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.StableHlo.Predicate

/-! ## Words: a position word below 25600 reads the same signed and unsigned -/

/-- It is not negative … -/
theorem word_slt_zero (w : BitVec 32) (hw : w.toNat < 25600) : IntOp.cmpi .slt w 0#32 = 0#1 := by
  apply eq_zero_of_ne_one
  intro h
  have := (slt_iff_toNat (a := w) (b := 0#32) (by omega) (by decide)).1 h
  simp at this

/-- … so the wrap of a negative word leaves it. -/
theorem word_wrap (w : BitVec 32) (hw : w.toNat < 25600) :
    Scalar.select (IntOp.cmpi .slt w 0#32) (IntOp.addi w 25600#32) w = w := by
  rw [word_slt_zero w hw, select_zero]

/-- It is at least 0 … -/
theorem word_sge_zero (w : BitVec 32) (hw : w.toNat < 25600) : IntOp.cmpi .sge w 0#32 = 1#1 :=
  (sge_iff_toNat (a := w) (b := 0#32) (by omega) (by decide)).2 (by simp)

/-- … and at most the last position. -/
theorem word_sle_last (w : BitVec 32) (hw : w.toNat < 25600) : IntOp.cmpi .sle w 25599#32 = 1#1 :=
  (sle_iff_toNat (a := w) (b := 25599#32) (by omega) (by decide)).2 (by
    show w.toNat ≤ 25599; omega)

/-- Read signed and clamped into [0, 25599] it is its unsigned value. -/
theorem word_clamp (w : BitVec 32) (hw : w.toNat < 25600) : min w.toInt.toNat 25599 = w.toNat := by
  rw [toInt_eq_toNat_of_lt (by omega)]
  simp; omega

/-! ## A conjunction of true bits, from a true initial bit, is true -/

theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_fold, hi]
  obtain rfl : x = fun _ => 1#1 := funext hx
  induction (Finset.univ.filter fun i => h.drop i = j) using Finset.cons_induction with
  | empty => rfl
  | cons a S ha ih => rw [Finset.fold_cons, ih]; rfl

/-! ## The batched gather at an index

Operand [32, 25600, 128], start indices [32, 1024, 1], result [32, 1024, 128]: axis 0 of the operand is the batching axis
(paired with axis 0 of the start indices), axis 1 is collapsed and start-indexed, axis 2 is the offset axis. Result
element (b, q, p) is the operand at (b, clamp(start[b, q, 0]), p), the start read signed and clamped into [0, 25599]. -/

/-- The gather's dimension numbers. -/
abbrev gD := gather_S32x25600x128_S32x1024x1_S32x1024x128_2_1_0_0_1_2_11128

theorem gather_at {α : Type} {w : Nat} (x : S32x25600x128.Idx → α) (idx : IVec S32x1024x1 w)
    (b : Fin 32) (q : Fin 1024) (p : Fin 128) :
    Host.gather gD x idx (ix3 b q p)
      = x (ix3 b ⟨min (idx (ix3 b q (0 : Fin 1))).toInt.toNat 25599, by omega⟩ p) := by
  unfold Host.gather
  congr 1
  funext a
  refine Fin.ext ?_
  show gD.start (ix3 b q p) idx a + gD.batchCoord (ix3 b q p) a + gD.offCoord (ix3 b q p) a = _
  match a with
  | ⟨0, h0⟩ =>
    have hb : (⟨0, h0⟩ : Fin S32x25600x128.rank) ∈ gD.operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    have hm : (⟨1, h1⟩ : Fin S32x25600x128.rank) ∈ gD.startIndexMap := List.mem_singleton.mpr rfl
    have hc : (⟨1, h1⟩ : Fin S32x25600x128.rank) ∈ gD.collapsedSliceDims := List.mem_singleton.mpr rfl
    have hnb : (⟨1, h1⟩ : Fin S32x25600x128.rank) ∉ gD.operandBatchingDims := by decide +revert
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gD.siIdx (ix3 b q p) ⟨List.idxOf (⟨1, h1⟩ : Fin S32x25600x128.rank) gD.startIndexMap,
        List.idxOf_lt_length_iff.2 hm⟩ = ix3 b q (0 : Fin 1) := by
      funext c; refine Fin.ext ?_
      match c with
      | ⟨0, _⟩ => rfl
      | ⟨1, _⟩ => rfl
      | ⟨2, _⟩ => rfl
    rw [hsi]
    rfl
  | ⟨2, h2⟩ =>
    have hnm : (⟨2, h2⟩ : Fin S32x25600x128.rank) ∉ gD.startIndexMap := by decide +revert
    have hnb : (⟨2, h2⟩ : Fin S32x25600x128.rank) ∉ gD.operandBatchingDims := by decide +revert
    have hk : (⟨2, h2⟩ : Fin S32x25600x128.rank) ∈ gD.sKept := (GatherDims.mem_sKept _ _).mpr ⟨by decide +revert, hnb⟩
    rw [GatherDims.batchCoord_eq_zero _ _ _ hnb]
    unfold GatherDims.start GatherDims.offCoord
    rw [dif_neg hnm, dif_pos hk]
    simp only [Nat.zero_add, Nat.add_zero]
    rfl

/-! ## Sums over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The position words, wrapped and range-tested -/

section Words
variable (x2 : (⟨S32x1024, .i32⟩ : BufTy).Contents (Elt Ideal)) (hidx : ∀ i : S32x1024.Idx, (x2 i).toNat < 25600)
include hidx

/-- The wrapped word is the word. -/
theorem wrapped_eq (i : S32x1024x1.Idx) : val_main_call0_v4 (F := Ideal) x2 i = x2 (idx_main_v2 i) := by
  rw [val_main_call0_v4_apply, val_main_call0_v1_apply, val_main_call0_v3_apply, val_main_v2_apply,
    val_main_call0_v0_apply, val_main_call0_c_apply, val_main_call0_v2_apply, val_main_call0_c_0_apply]
  exact word_wrap _ (hidx _)

/-- The range test holds at every word. -/
theorem inrange_one (i : S32x1024x1.Idx) : val_main_call0_v10 (F := Ideal) x2 i = 1#1 := by
  rw [val_main_call0_v10_apply, val_main_call0_v6_apply, val_main_call0_v9_apply, wrapped_eq x2 hidx,
    val_main_call0_v5_apply, val_main_call0_c_2_apply, val_main_call0_v8_apply, val_main_call0_v7_apply,
    val_main_call0_c_1_apply, word_sge_zero _ (hidx _), word_sle_last _ (hidx _)]
  rfl

/-- So its conjunction over the unit axis is true everywhere. -/
theorem allinrange_one (j : S32x1024.Idx) : val_main_call0_v11 (F := Ideal) x2 j = 1#1 := by
  unfold val_main_call0_v11
  exact reduce_andi_ones _ _ _ _ (inrange_one x2 hidx) rfl j

end Words

/-! ## The reference, index by index -/

theorem idx_words (b : Fin 32) (q : Fin 1024) (c : Fin 1) : idx_main_v2 (ix3 b q c) = ix2 b q := by
  funext a; match a with | ⟨0, _⟩ => rfl | ⟨1, _⟩ => rfl

theorem idx_swap (b : Fin 32) (p : Fin 128) (q : Fin 1024) : idx_main_v4 (ix3 b p q) = ix3 b q p := by
  funext a; match a with | ⟨0, _⟩ => rfl | ⟨1, _⟩ => rfl | ⟨2, _⟩ => rfl

theorem idx_test (b : Fin 32) (q : Fin 1024) (p : Fin 128) : idx_main_call0_v13 (ix3 b q p) = ix2 b q := by
  funext a; match a with | ⟨0, _⟩ => rfl | ⟨1, _⟩ => rfl

section Main
variable (x0 : (⟨S32x128x160x160, .f32⟩ : BufTy).Contents (Elt Ideal)) (x1 : (⟨S32x128x1024, .f32⟩ : BufTy).Contents (Elt Ideal))
  (x2 : (⟨S32x1024, .i32⟩ : BufTy).Contents (Elt Ideal)) (x3 : (⟨S32x1024, .f32⟩ : BufTy).Contents (Elt Ideal))

/-- The reshaped mask at (b, c, q) is the mask at (b, q). -/
theorem mask_row (b : Fin 32) (c : Fin 1) (q : Fin 1024) : val_main_v5 (F := Ideal) x3 (ix3 b c q) = x3 (ix2 b q) := by
  rw [val_main_v5_apply]
  congr 1
  have hb := b.isLt; have hc := c.isLt; have hq := q.isLt
  funext a
  match a with
  | ⟨0, _⟩ => exact Fin.ext (by show ((b.val * 1 + c.val) * 1024 + q.val) / 1024 = b.val; omega)
  | ⟨1, _⟩ => exact Fin.ext (by show ((b.val * 1 + c.val) * 1024 + q.val) % 1024 = q.val; omega)

/-- The mask broadcast over the channels at (b, p, q) is the mask at (b, q). -/
theorem mask_at (b : Fin 32) (p : Fin 128) (q : Fin 1024) : val_main_v6 (F := Ideal) x3 (ix3 b p q) = x3 (ix2 b q) := by
  rw [val_main_v6_apply, show idx_main_v6 (ix3 b p q) = ix3 b (0 : Fin 1) q from by
    funext a; match a with | ⟨0, _⟩ => rfl | ⟨1, _⟩ => rfl | ⟨2, _⟩ => rfl]
  exact mask_row x3 b 0 q

theorem mask_at' (b : Fin 32) (p : Fin 128) (q : Fin 1024) : val_main_v8 (F := Ideal) x3 (ix3 b p q) = x3 (ix2 b q) := by
  rw [val_main_v8_apply, show idx_main_v8 (ix3 b p q) = ix3 b (0 : Fin 1) q from by
    funext a; match a with | ⟨0, _⟩ => rfl | ⟨1, _⟩ => rfl | ⟨2, _⟩ => rfl]
  exact mask_row x3 b 0 q

variable (hidx : ∀ i : S32x1024.Idx, (x2 i).toNat < 25600)
include hidx

/-- The taken array at (b, q, p) is the flattened prediction of sample b, channel p at the position the word names. -/
theorem taken_at (b : Fin 32) (q : Fin 1024) (p : Fin 128) :
    val_main_v3 (F := Ideal) x0 x2 (ix3 b q p) = Cert.Spec.pick (val_main_v0 (F := Ideal) x0) x2 b p q := by
  rw [val_main_v3_apply, val_main_call0_v13_apply, allinrange_one x2 hidx, select_one]
  unfold val_main_call0_v12
  rw [gather_at, val_main_v1_apply]
  unfold Cert.Spec.pick
  rw [dif_pos (hidx (ix2 b q))]
  congr 1
  funext a
  match a with
  | ⟨0, _⟩ => rfl
  | ⟨1, _⟩ => rfl
  | ⟨2, _⟩ =>
    refine Fin.ext ?_
    show min (val_main_call0_v4 (F := Ideal) x2 (ix3 b q (0 : Fin 1))).toInt.toNat 25599 = (x2 (ix2 b q)).toNat
    rw [wrapped_eq x2 hidx, idx_words]
    exact word_clamp _ (hidx _)

/-- One element of the array of absolute differences is the specification's term. -/
theorem term_at (b : Fin 32) (p : Fin 128) (q : Fin 1024) :
    val_main_v11 (F := Ideal) x0 x1 x2 x3 (ix3 b p q) = Cert.Spec.term (val_main_v0 (F := Ideal) x0) x1 x2 x3 b p q := by
  rw [val_main_v11_apply, val_main_v10_apply, val_main_v7_apply, val_main_v9_apply, val_main_v4_apply, idx_swap,
    mask_at, mask_at', taken_at x0 x2 hidx]
  rfl

/-- The sum of the absolute differences is the specification's numerator. -/
theorem numer_eq : ∑ j : S32x128x1024.Idx, val_main_v11 (F := Ideal) x0 x1 x2 x3 j
    = Cert.Spec.numer (val_main_v0 (F := Ideal) x0) x1 x2 x3 := by
  rw [sum_idx3]
  unfold Cert.Spec.numer Cert.Spec.numerAt
  exact Finset.sum_congr rfl fun b _ => Finset.sum_congr rfl fun p _ => Finset.sum_congr rfl fun q _ =>
    term_at x0 x1 x2 x3 hidx b p q

omit hidx in
/-- The sum of the reshaped mask is the mask's total weight. -/
theorem maskSum_eq : ∑ j : S32x1x1024.Idx, val_main_v5 (F := Ideal) x3 j = Cert.Spec.maskSum x3 := by
  rw [sum_idx3]
  unfold Cert.Spec.maskSum
  refine Finset.sum_congr rfl fun b _ => ?_
  rw [Fin.sum_univ_one]
  exact Finset.sum_congr rfl fun q _ => mask_row x3 b 0 q

/-- THE REFERENCE'S RESULT IS THE SPECIFICATION. -/
theorem loss_eq (i : S_.Idx) :
    val_main_v17 (F := Ideal) x0 x1 x2 x3 i
      = Cert.Spec.loss (val_main_v0 (F := Ideal) x0) x1 x2 x3 := by
  rw [val_main_v17_apply, val_main_v16_apply, val_main_v12_apply, val_main_v15_apply, val_main_v14_apply,
    val_main_v13_apply, val_main_cst_apply, val_main_cst_0_apply, val_main_cst_1_apply, val_main_cst_2_apply,
    val_main_cst_3_apply, numer_eq x0 x1 x2 x3 hidx, maskSum_eq x3]
  simp only [Ideal.ofBits_def, Ideal.ofBits_zero_f32, zero_add]
  rfl

end Main

end Cert.ReferenceIdeal.RefValue

end
-- ==== Proof.KPieces.lean ====
/-
  What the body's stores leave in the carried accumulator [128 × 1024] and in the output block [1 × 1 × 128],
  read at an index, in terms of the body's arithmetic — for any float instance.

  The accumulator is written in two column halves (columns 0–511, then 512–1023), each half the old half plus a
  partial product. At a tile that starts a sample the accumulator is first filled with zeros and each half's
  "old half" is a read-back of that fill; at the other tiles it is the half the tile before left. At a sample's
  last tile the output block is computed from the accumulator read back after both halves are written, that is,
  from the accumulator's final contents.
-/
import proofs.«429631_j50156628083336_3_alg».proof.Proof.Gen.KernelIdeal.Frame
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem

namespace Cert.KernelIdeal.Pieces

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Entry (p, q') of the half that starts at column c0 sits at (p, c0 + q') of the accumulator. -/
theorem half_idx (c0 : ℕ) (inb : ∀ a, (![0, c0] : Fin 2 → ℕ) a + S128x512.size a ≤ S128x1024.size a)
    (p : Fin 128) (q' : Fin 512) (h : c0 + q'.val < 1024) :
    (Rect.unit (s := S128x1024) ![0, c0] S128x512.size inb).idx (ix2 p q') = ix2 p ⟨c0 + q'.val, h⟩ := by
  funext a
  apply Fin.ext
  match a with
  | ⟨0, _⟩ => show 0 + 1 * p.val = p.val; omega
  | ⟨1, _⟩ => show c0 + 1 * q'.val = c0 + q'.val; omega

/-- Which half holds column q. -/
theorem mem_half_iff (c0 : ℕ) (inb : ∀ a, (![0, c0] : Fin 2 → ℕ) a + S128x512.size a ≤ S128x1024.size a)
    (p : Fin 128) (q : Fin 1024) :
    ix2 p q ∈ (Rect.unit (s := S128x1024) ![0, c0] S128x512.size inb).set ↔ c0 ≤ q.val ∧ q.val < c0 + 512 := by
  rw [Rect.mem_set_unit]
  constructor
  · intro h; exact h 1
  · intro h a
    match a with
    | ⟨0, _⟩ => exact ⟨Nat.zero_le _, by show p.val < 0 + 128; have := p.isLt; omega⟩
    | ⟨1, _⟩ => exact h

/-- After the right half (last) and the left half are written, whatever was written before them: column q
    reads the left payload when q < 512 and the right payload at q − 512 otherwise. -/
theorem canon_halves (inbR : ∀ a, (![0, 512] : Fin 2 → ℕ) a + S128x512.size a ≤ S128x1024.size a)
    (inbL : ∀ a, (![0, 0] : Fin 2 → ℕ) a + S128x512.size a ≤ S128x1024.size a)
    (wR wL : S128x512.Idx → Elt F .f32) (L0 : List (View.Piece (Elt F) S128x1024 .f32)) (p : Fin 128) (q : Fin 1024) :
    View.canon ((⟨Rect.unit ![0, 512] S128x512.size inbR, wR⟩ : View.Piece (Elt F) S128x1024 .f32)
        :: ⟨Rect.unit ![0, 0] S128x512.size inbL, wL⟩ :: L0) (ix2 p q)
      = if h : q.val < 512 then wL (ix2 p ⟨q.val, h⟩) else wR (ix2 p ⟨q.val - 512, by have := q.isLt; omega⟩) := by
  split
  · next h =>
    rw [View.canon_cons_of_not_mem _ _ (fun hm => by have := (mem_half_iff 512 inbR p q).mp hm; omega)]
    have e : ix2 p q = (Rect.unit (s := S128x1024) ![0, 0] S128x512.size inbL).emb (ix2 p ⟨q.val, h⟩) :=
      ((half_idx 0 inbL p ⟨q.val, h⟩ (by show 0 + q.val < 1024; have := q.isLt; omega)).trans
        (by congr 1; apply Fin.ext; show 0 + q.val = q.val; omega)).symm
    rw [e, View.canon_cons_emb]
  · next h =>
    have hq := q.isLt
    have e : ix2 p q = (Rect.unit (s := S128x1024) ![0, 512] S128x512.size inbR).emb (ix2 p ⟨q.val - 512, by omega⟩) :=
      ((half_idx 512 inbR p ⟨q.val - 512, by omega⟩ (by show 512 + (q.val - 512) < 1024; omega)).trans
        (by congr 1; apply Fin.ext; show 512 + (q.val - 512) = q.val; omega)).symm
    rw [e, View.canon_cons_emb]

/-! ## Read-backs of the accumulator between its stores -/

section ReadBack
variable {κ : Kind} {sp : Space} (v : View sig κ sp S128x1024 .f32)

/-- A column half read back after ONE store of the whole accumulator reads that store's payload there. -/
theorem readCov_fill_half (inbW : ∀ a, (![0, 0] : Fin 2 → ℕ) a + S128x1024.size a ≤ S128x1024.size a)
    (w : S128x1024.Idx → Elt F .f32) (c0 : ℕ)
    (inb : ∀ a, (![0, c0] : Fin 2 → ℕ) a + S128x512.size a ≤ S128x1024.size a) :
    v.readCov [(⟨Rect.unit ![0, 0] S128x1024.size inbW, w⟩ : View.Piece (Elt F) S128x1024 .f32)]
        (Rect.unit (s := S128x1024) ![0, c0] S128x512.size inb).toLoadRect
      = View.ld w (Rect.unit (s := S128x1024) ![0, c0] S128x512.size inb) := by
  rw [View.readCov_eq_canon_ld _ _ _ (fun y => ⟨_, List.mem_singleton_self _, View.mem_set_unit_zero hz2 inbW y⟩),
    View.canon_unit_zero hz2]

/-- The RIGHT half read back after a whole store and then a store of the LEFT half still reads the whole store's
    payload: the left half's columns are not its columns. -/
theorem readCov_fill_left_right (inbW : ∀ a, (![0, 0] : Fin 2 → ℕ) a + S128x1024.size a ≤ S128x1024.size a)
    (w : S128x1024.Idx → Elt F .f32)
    (inbL : ∀ a, (![0, 0] : Fin 2 → ℕ) a + S128x512.size a ≤ S128x1024.size a) (wL : S128x512.Idx → Elt F .f32)
    (inbR : ∀ a, (![0, 512] : Fin 2 → ℕ) a + S128x512.size a ≤ S128x1024.size a) :
    v.readCov [(⟨Rect.unit ![0, 0] S128x512.size inbL, wL⟩ : View.Piece (Elt F) S128x1024 .f32),
          ⟨Rect.unit ![0, 0] S128x1024.size inbW, w⟩]
        (Rect.unit (s := S128x1024) ![0, 512] S128x512.size inbR).toLoadRect
      = View.ld w (Rect.unit (s := S128x1024) ![0, 512] S128x512.size inbR) := by
  rw [View.readCov_eq_canon_ld _ _ _ (fun y =>
    ⟨_, List.mem_cons_of_mem _ (List.mem_singleton_self _), View.mem_set_unit_zero hz2 inbW y⟩)]
  funext j
  obtain ⟨p, q', rfl⟩ : ∃ (p : Fin 128) (q' : Fin 512), j = ix2 p q' := ⟨j 0, j 1, eq_ix2 j⟩
  have hq := q'.isLt
  show View.canon _ ((Rect.unit (s := S128x1024) ![0, 512] S128x512.size inbR).idx (ix2 p q'))
    = w ((Rect.unit (s := S128x1024) ![0, 512] S128x512.size inbR).idx (ix2 p q'))
  rw [half_idx 512 inbR p q' (by omega)]
  rw [View.canon_cons_of_not_mem _ _ (fun hm => by
    have := (mem_half_iff 0 inbL p ⟨512 + q'.val, by omega⟩).mp hm
    dsimp only at this; omega)]
  rw [View.canon_unit_zero hz2]

/-- The two halves cover the accumulator. -/
theorem halves_cover (inbR : ∀ a, (![0, 512] : Fin 2 → ℕ) a + S128x512.size a ≤ S128x1024.size a)
    (inbL : ∀ a, (![0, 0] : Fin 2 → ℕ) a + S128x512.size a ≤ S128x1024.size a)
    (wR wL : S128x512.Idx → Elt F .f32) (y : S128x1024.Idx) :
    ∃ pc ∈ [(⟨Rect.unit ![0, 512] S128x512.size inbR, wR⟩ : View.Piece (Elt F) S128x1024 .f32),
        ⟨Rect.unit ![0, 0] S128x512.size inbL, wL⟩], y ∈ pc.1.set := by
  obtain ⟨p, q, rfl⟩ : ∃ (p : Fin 128) (q : Fin 1024), y = ix2 p q := ⟨y 0, y 1, eq_ix2 y⟩
  have hq := q.isLt
  by_cases h : q.val < 512
  · exact ⟨_, List.mem_cons_of_mem _ (List.mem_singleton_self _), (mem_half_iff 0 inbL p q).mpr ⟨Nat.zero_le _, by omega⟩⟩
  · exact ⟨_, List.mem_cons_self, (mem_half_iff 512 inbR p q).mpr ⟨by omega, by omega⟩⟩

end ReadBack

/-! ## The blocks' pieces the body reads -/

/-- The first 512 position words of the block, and the last 512. -/
abbrev wordsL (x1 : Vec F S1x1024x1 .i32) : Vec F S1x512x1 .i32 :=
  View.ld x1 (Rect.unit (s := S1x1024x1) ![0, 0, 0] S1x512x1.size Facts₀.inb_S1x1024x1_S1x512x1_0_0_0)
abbrev wordsR (x1 : Vec F S1x1024x1 .i32) : Vec F S1x512x1 .i32 :=
  View.ld x1 (Rect.unit (s := S1x1024x1) ![0, 512, 0] S1x512x1.size Facts₀.inb_S1x1024x1_S1x512x1_0_512_0)
/-- The left and the right column half of an accumulator's contents. -/
abbrev halfL (X : Vec F S128x1024 .f32) : Vec F S128x512 .f32 :=
  View.ld X (Rect.unit (s := S128x1024) ![0, 0] S128x512.size Facts₀.inb_S128x1024_S128x512_0_0)
abbrev halfR (X : Vec F S128x1024 .f32) : Vec F S128x512 .f32 :=
  View.ld X (Rect.unit (s := S128x1024) ![0, 512] S128x512.size Facts₀.inb_S128x1024_S128x512_0_512)

/-! ## What each control case leaves -/

/-- A tile that starts a sample: column q of the accumulator ends at the half's update of the zero fill. -/
theorem scrA_apply (c : Dev nD) (i : grid0.Coords) (arg2 : Memref sig .tc .vmem S1x128x12800 .f32) (harg2 : arg2.IsWhole) (arg3 : Memref sig .tc .vmem S1x1024x1 .i32) (harg3 : arg3.IsWhole) (arg4 : Memref sig .tc .vmem S1x1x1024 .f32) (harg4 : arg4.IsWhole) (arg5 : Memref sig .tc .vmem S1x128x1024 .f32) (harg5 : arg5.IsWhole) (arg6 : Memref sig .tc .vmem S1x1x128 .f32) (harg6 : arg6.IsWhole) (arg7 : Memref sig .tc .vmem S128x1024 .f32) (harg7 : arg7.IsWhole) (hc0 : cond0_0 i) (hc1 : ¬cond0_1 i)
    (x0 : Vec F S1x128x12800 .f32) (x1 : Vec F S1x1024x1 .i32) (x2 : Vec F S1x1x1024 .f32) (x3 : Vec F S1x128x1024 .f32) (p : Fin 128) (q : Fin 1024) :
    sout0_A_0 c i arg2 harg2 arg3 harg3 arg4 harg4 arg5 harg5 arg6 harg6 arg7 harg7 hc0 hc1 x0 x1 x2 x3 (ix2 p q)
      = if h : q.val < 512 then k0_pay6 i x0 (wordsL x1) (halfL k0_pay3) (ix2 p ⟨q.val, h⟩)
        else k0_pay1 (k0_pay7 i x0 (wordsR x1) (halfR k0_pay3)) (ix2 p ⟨q.val - 512, by have := q.isLt; omega⟩) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  refine (canon_halves _ _ _ _ _ p q).trans ?_
  simp only [View.readAt_eq_ld, harg2.read_unread, harg3.read_unread, View.ld_unit_zero (S := S1x128x12800) hz3]
  have eL : arg7.view.readCov
      [(⟨Rect.unit ![0, 0] S128x1024.size Facts₀.inb_S128x1024_S128x1024_0_0, k0_pay3⟩ : View.Piece (Elt F) S128x1024 .f32)]
      (Rect.unit (s := S128x1024) ![0, 0] S128x512.size Facts₀.inb_S128x1024_S128x512_0_0).toLoadRect = halfL k0_pay3 :=
    readCov_fill_half _ _ _ _ _
  have eR : ∀ wL : S128x512.Idx → Elt F .f32, arg7.view.readCov
      [(⟨Rect.unit ![0, 0] S128x512.size Facts₀.inb_S128x1024_S128x512_0_0, wL⟩ : View.Piece (Elt F) S128x1024 .f32),
        ⟨Rect.unit ![0, 0] S128x1024.size Facts₀.inb_S128x1024_S128x1024_0_0, k0_pay3⟩]
      (Rect.unit (s := S128x1024) ![0, 512] S128x512.size Facts₀.inb_S128x1024_S128x512_0_512).toLoadRect = halfR k0_pay3 :=
    fun wL => readCov_fill_left_right _ _ _ _ _ _
  by_cases h : q.val < 512
  · rw [dif_pos h, dif_pos h]
    exact congrArg (fun z => k0_pay6 i x0 (wordsL x1) z (ix2 p ⟨q.val, h⟩)) eL
  · rw [dif_neg h, dif_neg h]
    exact congrArg (fun z => k0_pay1 (k0_pay7 i x0 (wordsR x1) z) (ix2 p ⟨q.val - 512, by have := q.isLt; omega⟩)) (eR _)

/-- A later tile: column q ends at the half's update of what the tile before left. -/
theorem scrB_apply (c : Dev nD) (i : grid0.Coords) (arg2 : Memref sig .tc .vmem S1x128x12800 .f32) (harg2 : arg2.IsWhole) (arg3 : Memref sig .tc .vmem S1x1024x1 .i32) (harg3 : arg3.IsWhole) (arg4 : Memref sig .tc .vmem S1x1x1024 .f32) (harg4 : arg4.IsWhole) (arg5 : Memref sig .tc .vmem S1x128x1024 .f32) (harg5 : arg5.IsWhole) (arg6 : Memref sig .tc .vmem S1x1x128 .f32) (harg6 : arg6.IsWhole) (arg7 : Memref sig .tc .vmem S128x1024 .f32) (harg7 : arg7.IsWhole) (hc0 : ¬cond0_0 i) (hc1 : cond0_1 i)
    (x0 : Vec F S1x128x12800 .f32) (x1 : Vec F S1x1024x1 .i32) (x2 : Vec F S1x1x1024 .f32) (x3 : Vec F S1x128x1024 .f32) (xs0 : Vec F S128x1024 .f32) (p : Fin 128) (q : Fin 1024) :
    sout0_B_0 c i arg2 harg2 arg3 harg3 arg4 harg4 arg5 harg5 arg6 harg6 arg7 harg7 hc0 hc1 x0 x1 x2 x3 xs0 (ix2 p q)
      = if h : q.val < 512 then k0_pay6 i x0 (wordsL x1) (halfL xs0) (ix2 p ⟨q.val, h⟩)
        else k0_pay1 (k0_pay7 i x0 (wordsR x1) (halfR xs0)) (ix2 p ⟨q.val - 512, by have := q.isLt; omega⟩) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  refine (canon_halves _ _ _ _ [] p q).trans ?_
  simp only [View.readAt_eq_ld, harg2.read_unread, harg3.read_unread, harg7.read_unread,
    View.ld_unit_zero (S := S1x128x12800) hz3]

/-- A sample's last tile: the output block is the finalize arithmetic of the target block, the mask block and the
    accumulator's final contents. -/
theorem outB_eq (c : Dev nD) (i : grid0.Coords) (arg2 : Memref sig .tc .vmem S1x128x12800 .f32) (harg2 : arg2.IsWhole) (arg3 : Memref sig .tc .vmem S1x1024x1 .i32) (harg3 : arg3.IsWhole) (arg4 : Memref sig .tc .vmem S1x1x1024 .f32) (harg4 : arg4.IsWhole) (arg5 : Memref sig .tc .vmem S1x128x1024 .f32) (harg5 : arg5.IsWhole) (arg6 : Memref sig .tc .vmem S1x1x128 .f32) (harg6 : arg6.IsWhole) (arg7 : Memref sig .tc .vmem S128x1024 .f32) (harg7 : arg7.IsWhole) (hc0 : ¬cond0_0 i) (hc1 : cond0_1 i)
    (x0 : Vec F S1x128x12800 .f32) (x1 : Vec F S1x1024x1 .i32) (x2 : Vec F S1x1x1024 .f32) (x3 : Vec F S1x128x1024 .f32) (xs0 : Vec F S128x1024 .f32) :
    out0_B_4 c i arg2 harg2 arg3 harg3 arg4 harg4 arg5 harg5 arg6 harg6 arg7 harg7 hc0 hc1 x0 x1 x2 x3 xs0 = k0_pay2 x3 x2 (sout0_B_0 c i arg2 harg2 arg3 harg3 arg4 harg4 arg5 harg5 arg6 harg6 arg7 harg7 hc0 hc1 x0 x1 x2 x3 xs0) := by
  unfold out0_B_4 sout0_B_0
  rw [View.read_writes_eq_canon _ _ _ (cover0_B_4 c i arg2 harg2 arg3 harg3 arg4 harg4 arg5 harg5 arg6 harg6 arg7 harg7 hc0 hc1 x0 x1 x2 x3 xs0),
    View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz3]
  simp only [View.readAt_eq_ld, harg2.read_unread, harg3.read_unread, harg4.read_unread, harg5.read_unread, harg7.read_unread,
    View.ld_unit_zero (S := S1x128x12800) hz3, View.ld_unit_zero (S := S1x128x1024) hz3, View.ld_unit_zero (S := S1x1x1024) hz3]
  congr 1
  exact (View.readCov_eq_canon_ld _ _ _ (halves_cover _ _ _ _)).trans (View.ld_unit_zero hz2 _ _)

end Cert.KernelIdeal.Pieces

end
-- ==== Proof.KBlocks.lean ====
/-
  The blocks the body sees at a grid point, as entries of the whole arrays — for any float instance.

  The grid is 32 samples × 2 tiles, point t = 2·b + s working on sample b = t / 2 and tile s = t % 2. The
  prediction window hands the body the 128 × 12800 tile s of sample b of the flattened prediction; the word,
  mask and target windows hand it sample b's whole row of words, row of weights and 128 × 1024 targets. The
  arrays the region finds are reshapes of the arguments (the flattened prediction, the words as a column, the
  mask as a row), and the target itself.
-/
import proofs.«429631_j50156628083336_3_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- There are 64 points. -/
theorem lt64 (t : Fin cfg0.N) : t.val < 64 := lt_of_lt_of_eq t.isLt N_0

/-! ## Which blocks a point works on (decided over the 64 points) -/

theorem index0 : ∀ t : Fin cfg0.N, win0_0.index t 0 = t.val / 2 ∧ win0_0.index t 1 = 0 ∧ win0_0.index t 2 = t.val % 2 :=
  (by decide +kernel : ∀ t : Fin grid0.N, win0_0.index t 0 = t.val / 2 ∧ win0_0.index t 1 = 0 ∧ win0_0.index t 2 = t.val % 2)
theorem index1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
theorem index2 : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)
theorem index3 : ∀ t : Fin cfg0.N, win0_3.index t 0 = t.val / 2 ∧ win0_3.index t 1 = 0 ∧ win0_3.index t 2 = 0 :=
  (by decide +kernel : ∀ t : Fin grid0.N, win0_3.index t 0 = t.val / 2 ∧ win0_3.index t 1 = 0 ∧ win0_3.index t 2 = 0)
theorem index4 : ∀ t : Fin cfg0.N, win0_4.index t 0 = t.val / 2 ∧ win0_4.index t 1 = 0 ∧ win0_4.index t 2 = 0 :=
  (by decide +kernel : ∀ t : Fin grid0.N, win0_4.index t 0 = t.val / 2 ∧ win0_4.index t 1 = 0 ∧ win0_4.index t 2 = 0)
/-- The tile coordinate of point t. -/
theorem tile : ∀ t : Fin cfg0.N, (grid0.coords t 1).val = t.val % 2 :=
  (by decide +kernel : ∀ t : Fin grid0.N, (grid0.coords t 1).val = t.val % 2)

/-! ## The arrays and the blocks, at their literal types -/

abbrev predArr (c : Dev nD) : Vec F S32x128x25600 .f32 := V m c main_v0
abbrev wordArr (c : Dev nD) : Vec F S32x1024x1 .i32 := V m c main_v1
abbrev maskArr (c : Dev nD) : Vec F S32x1x1024 .f32 := V m c main_v2
abbrev tgtArr (c : Dev nD) : Vec F S32x128x1024 .f32 := V m c main_arg1

abbrev predBlk (c : Dev nD) (t : Fin cfg0.N) : Vec F S1x128x12800 .f32 := iblk m c 0 t
abbrev wordBlk (c : Dev nD) (t : Fin cfg0.N) : Vec F S1x1024x1 .i32 := iblk m c 1 t
abbrev maskBlk (c : Dev nD) (t : Fin cfg0.N) : Vec F S1x1x1024 .f32 := iblk m c 2 t
abbrev tgtBlk (c : Dev nD) (t : Fin cfg0.N) : Vec F S1x128x1024 .f32 := iblk m c 3 t

/-- Entry (0, p, j) of the prediction tile at point t is entry (t / 2, p, 12800·(t % 2) + j) of the flattened
    prediction. -/
theorem predBlk_apply (c : Dev nD) (t : Fin cfg0.N) (p : Fin 128) (j : Fin 12800) :
    predBlk m c t (ix3 (0 : Fin 1) p j)
      = predArr m c (ix3 ⟨t.val / 2, by have := lt64 t; omega⟩ p
          ⟨12800 * (t.val % 2) + j.val, by have := j.isLt; omega⟩) := by
  unfold predBlk predArr iblk
  rw [View.read_apply]
  show V m c main_v0 _ = V m c main_v0 _
  congr 1
  funext a
  apply Fin.ext
  match a with
  | ⟨0, _⟩ => show win0_0.index t 0 * 1 + 1 * 0 = t.val / 2; rw [(index0 t).1]; omega
  | ⟨1, _⟩ => show win0_0.index t 1 * 128 + 1 * p.val = p.val; rw [(index0 t).2.1]; omega
  | ⟨2, _⟩ => show win0_0.index t 2 * 12800 + 1 * j.val = 12800 * (t.val % 2) + j.val; rw [(index0 t).2.2]; omega

/-- Word (0, q, 0) of the block at point t is word (t / 2, q, 0) of the column array. -/
theorem wordBlk_apply (c : Dev nD) (t : Fin cfg0.N) (q : Fin 1024) :
    wordBlk m c t (ix3 (0 : Fin 1) q (0 : Fin 1))
      = wordArr m c (ix3 ⟨t.val / 2, by have := lt64 t; omega⟩ q (0 : Fin 1)) := by
  unfold wordBlk wordArr iblk
  rw [View.read_apply]
  show V m c main_v1 _ = V m c main_v1 _
  congr 1
  funext a
  apply Fin.ext
  match a with
  | ⟨0, _⟩ => show win0_1.index t 0 * 1 + 1 * 0 = t.val / 2; rw [(index1 t).1]; omega
  | ⟨1, _⟩ => show win0_1.index t 1 * 1024 + 1 * q.val = q.val; rw [(index1 t).2.1]; omega
  | ⟨2, _⟩ => show win0_1.index t 2 * 1 + 1 * 0 = 0; rw [(index1 t).2.2]

/-- Weight (0, 0, q) of the block at point t is weight (t / 2, 0, q) of the row array. -/
theorem maskBlk_apply (c : Dev nD) (t : Fin cfg0.N) (q : Fin 1024) :
    maskBlk m c t (ix3 (0 : Fin 1) (0 : Fin 1) q)
      = maskArr m c (ix3 ⟨t.val / 2, by have := lt64 t; omega⟩ (0 : Fin 1) q) := by
  unfold maskBlk maskArr iblk
  rw [View.read_apply]
  show V m c main_v2 _ = V m c main_v2 _
  congr 1
  funext a
  apply Fin.ext
  match a with
  | ⟨0, _⟩ => show win0_2.index t 0 * 1 + 1 * 0 = t.val / 2; rw [(index2 t).1]; omega
  | ⟨1, _⟩ => show win0_2.index t 1 * 1 + 1 * 0 = 0; rw [(index2 t).2.1]
  | ⟨2, _⟩ => show win0_2.index t 2 * 1024 + 1 * q.val = q.val; rw [(index2 t).2.2]; omega

/-- Target (0, p, q) of the block at point t is target (t / 2, p, q). -/
theorem tgtBlk_apply (c : Dev nD) (t : Fin cfg0.N) (p : Fin 128) (q : Fin 1024) :
    tgtBlk m c t (ix3 (0 : Fin 1) p q)
      = tgtArr m c (ix3 ⟨t.val / 2, by have := lt64 t; omega⟩ p q) := by
  unfold tgtBlk tgtArr iblk
  rw [View.read_apply]
  show V m c main_arg1 _ = V m c main_arg1 _
  congr 1
  funext a
  apply Fin.ext
  match a with
  | ⟨0, _⟩ => show win0_3.index t 0 * 1 + 1 * 0 = t.val / 2; rw [(index3 t).1]; omega
  | ⟨1, _⟩ => show win0_3.index t 1 * 128 + 1 * p.val = p.val; rw [(index3 t).2.1]; omega
  | ⟨2, _⟩ => show win0_3.index t 2 * 1024 + 1 * q.val = q.val; rw [(index3 t).2.2]; omega

/-! ## The arrays the region finds -/

/-- The flattened prediction is the reshape of the prediction argument. -/
theorem predArr_eq (c : Dev nD) :
    predArr m c = shapeCast S32x128x25600 (m ((c : Thread nD τ).loc main_arg0)) Facts₀.shapeCasts_S32x128x160x160_S32x128x25600 := by
  show StableHlo.after hostOps0 (fun b => m (c, b)) (Proc.devRef .tc main_v0) = _
  after_results
  rfl

/-- The words as a column. -/
theorem wordArr_eq (c : Dev nD) :
    wordArr m c = shapeCast S32x1024x1 (m ((c : Thread nD τ).loc main_arg2)) Facts₀.shapeCasts_S32x1024_S32x1024x1 := by
  show StableHlo.after hostOps0 (fun b => m (c, b)) (Proc.devRef .tc main_v1) = _
  after_results
  rfl

/-- The mask as a row per sample. -/
theorem maskArr_eq (c : Dev nD) :
    maskArr m c = shapeCast S32x1x1024 (m ((c : Thread nD τ).loc main_arg3)) Facts₀.shapeCasts_S32x1024_S32x1x1024 := by
  show StableHlo.after hostOps0 (fun b => m (c, b)) (Proc.devRef .tc main_v2) = _
  after_results
  rfl

/-- The target is found as launched. -/
theorem tgtArr_eq (c : Dev nD) : tgtArr m c = m ((c : Thread nD τ).loc main_arg1) := V_main_arg1 m c

end Cert.KernelIdeal.Blocks

end
-- ==== Proof.KPayload.lean ====
/-
  The kernel body's arithmetic read at an index, at the ideal values.

  At grid point (b, t) the body forms, for each 512-row chunk of the position words, a 0/1 selector over the 12800
  positions of tile t — the selector of word w at position j is 1 when w, read unsigned, is 12800·t + j, else 0 —
  contracts it against the prediction tile and adds the result to what the scratch held: at (p, q) that is the held
  value plus the tile's entry at the position the word names when that position lies in tile t, plus 0 otherwise.
  At the last tile it forms the masked absolute differences and sums them over positions and channels.
-/
import proofs.«429631_j50156628083336_3_alg».proof.Proof.Gen.KernelIdeal.Skeleton
import proofs.«429631_j50156628083336_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Payload

open Cert.KernelIdeal Cert.KernelIdeal.Gen Idealize.ShloMosaic Idealize.ShloMosaic.ValueIdx

/-! ## The zero splat -/

/-- The value the scratch is cleared with is 0 everywhere. -/
theorem pay3_apply (y : S128x1024.Idx) : k0_pay3 (F := Ideal) y = 0 := by
  unfold k0_pay3
  rw [shapeCast_self]
  exact Ideal.ofBits_zero_f32

/-! ## The position row of tile t -/

/-- The row of position words of tile t: at lane j the word 12800·t + j (as 32-bit arithmetic). -/
theorem pay4_apply (i : grid0.Coords) (u : Fin 1) (j : Fin 12800) :
    k0_pay4 i (ix2 u j) = BitVec.ofNat 32 (i 1).val * 12800#32 + BitVec.ofNat 32 j.val := by
  unfold k0_pay4
  show IntOp.addi (IntOp.muli (BitVec.ofNat 32 (i 1).val) 12800#32) (iota .tc S1x12800 32 [1] iota_S1x12800_d1_w32 (ix2 u j)) = _
  rw [iota_single_apply]
  rfl

/-- No wrap: for t below 2 and j below 12800 a 32-bit word equals 12800·t + j computed in 32 bits exactly when its
    unsigned value is 12800·t + j. -/
theorem word_eq_iff (w : BitVec 32) (t j : ℕ) (ht : t < 2) (hj : j < 12800) :
    w = BitVec.ofNat 32 t * 12800#32 + BitVec.ofNat 32 j ↔ w.toNat = 12800 * t + j := by
  have hv : (BitVec.ofNat 32 t * 12800#32 + BitVec.ofNat 32 j).toNat = 12800 * t + j := by
    simp only [BitVec.toNat_add, BitVec.toNat_mul, BitVec.toNat_ofNat]
    omega
  constructor
  · intro h; rw [h, hv]
  · intro h; exact BitVec.eq_of_toNat_eq (h.trans hv.symm)

/-- The widened compare bit, converted: 1 when the bit is set, else 0. -/
theorem sitofp_bit (b : BitVec 1) :
    (FloatOps.sitofp (F := Ideal) .f32 (b.setWidth 32) : EReal) = if b = 1#1 then 1 else 0 := by
  show (((b.setWidth 32).toInt : ℝ) : EReal) = _
  rcases BitVec.eq_zero_or_eq_one b with rfl | rfl
  · rw [if_neg (by decide)]
    have : ((0#1 : BitVec 1).setWidth 32).toInt = 0 := by decide
    rw [this]; simp
  · rw [if_pos rfl]
    have : ((1#1 : BitVec 1).setWidth 32).toInt = 1 := by decide
    rw [this]; simp

/-! ## The prediction tile -/

/-- The prediction tile as the matrix unit reads it: entry (p, j) of the block. -/
theorem pay5_apply (v7 : Vec Ideal S1x128x12800 .f32) (p : Fin 128) (j : Fin 12800) :
    k0_pay5 (F := Ideal) v7 (ix2 p j) = v7 (ix3 (0 : Fin 1) p j) := by
  unfold k0_pay5
  rw [truncf_apply]
  exact shapeCast_1ab_ab_apply v7 _ p j

/-! ## The selector of a chunk of position words -/

/-- A column broadcast over lanes reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 0/1 selector of the 512 position words `v` over the 12800 positions of tile t, as the matrix unit reads it. -/
def selector (i : grid0.Coords) (v : Vec Ideal S1x512x1 .i32) : FVec Ideal S512x12800 .bf16 :=
  truncf .bf16 (sitofp .f32 (extui 32 (cmpi .eq
    (broadcastTo S512x12800 (shapeCast S512x1 v shapeCasts_S1x512x1_S512x1) broadcasts_S512x1_S512x12800)
    (broadcastTo S512x12800 (k0_pay4 i) broadcasts_S1x12800_S512x12800)) natLt_1_32)) bitsLt_bf16_f32

/-- The selector at (q, j): 1 when word q, read unsigned, is position 12800·t + j, else 0. -/
theorem selector_apply (i : grid0.Coords) (v : Vec Ideal S1x512x1 .i32) (q : Fin 512) (j : Fin 12800) :
    selector i v (ix2 q j)
      = if (v (ix3 (0 : Fin 1) q (0 : Fin 1))).toNat = 12800 * (i 1).val + j.val then (1 : EReal) else 0 := by
  have ht : (i 1).val < 2 := (i 1).isLt
  unfold selector
  rw [truncf_apply, sitofp_apply, extui_apply]
  refine (sitofp_bit _).trans ?_
  show (if IntOp.cmpi .eq
      (broadcastTo S512x12800 (shapeCast S512x1 v shapeCasts_S1x512x1_S512x1) broadcasts_S512x1_S512x12800 (ix2 q j))
      (broadcastTo S512x12800 (k0_pay4 i) broadcasts_S1x12800_S512x12800 (ix2 q j)) = 1#1 then (1 : EReal) else 0) = _
  rw [broadcastTo_a1_ab_apply, broadcastTo_1b_ab_apply, pay4_apply, shapeCast_1ab_ab_apply]
  exact if_congr (StableHlo.Predicate.cmpi_eq_iff.trans (word_eq_iff _ _ _ ht j.isLt)) rfl rfl

/-! ## The contraction -/

/-- Left operand, row axis: the result's row. -/
theorem lhs_axis0 (p : Fin 128) (q : Fin 512) (k : dot_S128x12800_S512x12800_S128x512_1_1_0_0_n_n.contr.Idx) :
    (dot_S128x12800_S512x12800_S128x512_1_1_0_0_n_n.lhsIdx (ix2 p q) k 0).val = p.val := by
  unfold DotDims.lhsIdx
  rw [dif_neg (show ¬ (0 : Fin S128x12800.rank) ∈ dot_S128x12800_S512x12800_S128x512_1_1_0_0_n_n.lhsBatch by decide),
    dif_pos (show (0 : Fin S128x12800.rank) ∈ dot_S128x12800_S512x12800_S128x512_1_1_0_0_n_n.lhsNonContracting by decide)]
  rfl

/-- Left operand, lane axis: the contraction position. -/
theorem lhs_axis1 (p : Fin 128) (q : Fin 512) (k : dot_S128x12800_S512x12800_S128x512_1_1_0_0_n_n.contr.Idx) :
    (dot_S128x12800_S512x12800_S128x512_1_1_0_0_n_n.lhsIdx (ix2 p q) k 1).val = (k ⟨0, by decide⟩).val :=
  DotDims.lhsIdx_val_of_single dot_S128x12800_S512x12800_S128x512_1_1_0_0_n_n (cl := 1) rfl (ix2 p q) k

/-- Right operand, row axis: the result's column. -/
theorem rhs_axis0 (p : Fin 128) (q : Fin 512) (k : dot_S128x12800_S512x12800_S128x512_1_1_0_0_n_n.contr.Idx) :
    (dot_S128x12800_S512x12800_S128x512_1_1_0_0_n_n.rhsIdx (ix2 p q) k 0).val = q.val := by
  unfold DotDims.rhsIdx
  rw [dif_neg (show ¬ (0 : Fin S512x12800.rank) ∈ dot_S128x12800_S512x12800_S128x512_1_1_0_0_n_n.rhsBatch by decide),
    dif_pos (show (0 : Fin S512x12800.rank) ∈ dot_S128x12800_S512x12800_S128x512_1_1_0_0_n_n.rhsNonContracting by decide)]
  rfl

/-- Right operand, lane axis: the contraction position. -/
theorem rhs_axis1 (p : Fin 128) (q : Fin 512) (k : dot_S128x12800_S512x12800_S128x512_1_1_0_0_n_n.contr.Idx) :
    (dot_S128x12800_S512x12800_S128x512_1_1_0_0_n_n.rhsIdx (ix2 p q) k 1).val = (k ⟨0, by decide⟩).val :=
  DotDims.rhsIdx_val_of_single dot_S128x12800_S512x12800_S128x512_1_1_0_0_n_n (cr := 1) rfl (ix2 p q) k

/-- The product into a zero accumulator, at (p, q): the sum over the 12800 lanes of row p of the left operand times
    row q of the right one. -/
theorem matmul_zero_apply (A : FVec Ideal S128x12800 .bf16) (B : FVec Ideal S512x12800 .bf16) (p : Fin 128) (q : Fin 512) :
    matmul dot_S128x12800_S512x12800_S128x512_1_1_0_0_n_n none A B (constant (F := Ideal) S128x512 .f32 0x00000000#32) (ix2 p q)
      = ∑ j : Fin 12800, A (ix2 p j) * B (ix2 q j) := by
  show FloatOps.matmul dot_S128x12800_S512x12800_S128x512_1_1_0_0_n_n none A B (constant S128x512 .f32 0x00000000#32) (ix2 p q) = _
  rw [Ideal.matmul_constant_zero_apply,
    ← Equiv.sum_comp (contrEquiv1 dot_S128x12800_S512x12800_S128x512_1_1_0_0_n_n 12800 rfl rfl).symm]
  refine Finset.sum_congr rfl fun c _ => ?_
  have hc := contrEquiv1_symm_val dot_S128x12800_S512x12800_S128x512_1_1_0_0_n_n 12800 rfl rfl c
  have hl : dot_S128x12800_S512x12800_S128x512_1_1_0_0_n_n.lhsIdx (ix2 p q)
      ((contrEquiv1 dot_S128x12800_S512x12800_S128x512_1_1_0_0_n_n 12800 rfl rfl).symm c) = ix2 p c := by
    funext ax; apply Fin.ext
    match ax with
    | ⟨0, _⟩ => exact lhs_axis0 _ _ _
    | ⟨1, _⟩ => exact (lhs_axis1 _ _ _).trans hc
  have hr : dot_S128x12800_S512x12800_S128x512_1_1_0_0_n_n.rhsIdx (ix2 p q)
      ((contrEquiv1 dot_S128x12800_S512x12800_S128x512_1_1_0_0_n_n 12800 rfl rfl).symm c) = ix2 q c := by
    funext ax; apply Fin.ext
    match ax with
    | ⟨0, _⟩ => exact rhs_axis0 _ _ _
    | ⟨1, _⟩ => exact (rhs_axis1 _ _ _).trans hc
  rw [hl, hr]

/-! ## The two accumulations -/

/-- A product against the selector summed over the tile's positions is the pick of the word within the tile. -/
theorem contract_selector (i : grid0.Coords) (v7 : Vec Ideal S1x128x12800 .f32) (v : Vec Ideal S1x512x1 .i32)
    (p : Fin 128) (q : Fin 512) :
    matmul dot_S128x12800_S512x12800_S128x512_1_1_0_0_n_n none (k0_pay5 (F := Ideal) v7) (selector i v)
        (constant (F := Ideal) S128x512 .f32 0x00000000#32) (ix2 p q)
      = Cert.Spec.sel (fun j : Fin 12800 => v7 (ix3 (0 : Fin 1) p j)) (12800 * (i 1).val)
          (v (ix3 (0 : Fin 1) q (0 : Fin 1))).toNat := by
  refine (matmul_zero_apply _ _ p q).trans ?_
  refine (Finset.sum_congr rfl fun j _ => ?_).trans
    (Cert.Spec.sum_mul_ite_eq_sel (fun j : Fin 12800 => v7 (ix3 (0 : Fin 1) p j)) (12800 * (i 1).val)
      (v (ix3 (0 : Fin 1) q (0 : Fin 1))).toNat)
  rw [pay5_apply, selector_apply]

/-- The first chunk: what the scratch held plus the pick of each word within tile t. -/
theorem pay6_apply (i : grid0.Coords) (v7 : Vec Ideal S1x128x12800 .f32) (v10 : Vec Ideal S1x512x1 .i32)
    (v19 : Vec Ideal S128x512 .f32) (p : Fin 128) (q : Fin 512) :
    k0_pay6 (F := Ideal) i v7 v10 v19 (ix2 p q)
      = v19 (ix2 p q) + Cert.Spec.sel (fun j : Fin 12800 => v7 (ix3 (0 : Fin 1) p j)) (12800 * (i 1).val)
          (v10 (ix3 (0 : Fin 1) q (0 : Fin 1))).toNat := by
  have e : k0_pay6 (F := Ideal) i v7 v10 v19
      = shapeCast S128x512 (addf v19 (matmul dot_S128x12800_S512x12800_S128x512_1_1_0_0_n_n none (k0_pay5 (F := Ideal) v7)
          (selector i v10) (constant (F := Ideal) S128x512 .f32 0x00000000#32))) shapeCasts_S128x512_S128x512 := rfl
  rw [e, shapeCast_self, addf_apply]
  exact congrArg (v19 (ix2 p q) + ·) (contract_selector i v7 v10 p q)

/-- The second chunk likewise. -/
theorem pay7_apply (i : grid0.Coords) (v7 : Vec Ideal S1x128x12800 .f32) (v24 : Vec Ideal S1x512x1 .i32)
    (v33 : Vec Ideal S128x512 .f32) (p : Fin 128) (q : Fin 512) :
    k0_pay1 (F := Ideal) (k0_pay7 (F := Ideal) i v7 v24 v33) (ix2 p q)
      = v33 (ix2 p q) + Cert.Spec.sel (fun j : Fin 12800 => v7 (ix3 (0 : Fin 1) p j)) (12800 * (i 1).val)
          (v24 (ix3 (0 : Fin 1) q (0 : Fin 1))).toNat := by
  have e : k0_pay1 (F := Ideal) (k0_pay7 (F := Ideal) i v7 v24 v33)
      = shapeCast S128x512 (addf v33 (matmul dot_S128x12800_S512x12800_S128x512_1_1_0_0_n_n none (k0_pay5 (F := Ideal) v7)
          (selector i v24) (constant (F := Ideal) S128x512 .f32 0x00000000#32))) shapeCasts_S128x512_S128x512 := rfl
  rw [e, shapeCast_self, addf_apply]
  exact congrArg (v33 (ix2 p q) + ·) (contract_selector i v7 v24 p q)

/-! ## The masked absolute differences and their sum -/

/-- The mask row spread over the 128 channels. -/
def maskRows (v43 : Vec Ideal S1x1x1024 .f32) : FVec Ideal S128x1024 .f32 :=
  broadcastTo S128x1024 (shapeCast S1x1024 (shapeCast S1024 v43 shapeCasts_S1x1x1024_S1024) shapeCasts_S1024_S1x1024)
    broadcasts_S1x1024_S128x1024

/-- It reads the mask at the position, whatever the channel. -/
theorem maskRows_apply (v43 : Vec Ideal S1x1x1024 .f32) (p : Fin 128) (q : Fin 1024) :
    maskRows v43 (ix2 p q) = v43 (ix3 (0 : Fin 1) (0 : Fin 1) q) := by
  unfold maskRows
  rw [broadcastTo_1b_ab_apply, shapeCast_a_1a_apply]
  refine shapeCast_apply v43 _ (ix1 q) (ix3 (0 : Fin 1) (0 : Fin 1) q) ?_
  rw [Shape.rowMajor_val_three, Shape.rowMajor_val_one]
  show (0 * 1 + 0) * 1024 + q.val = q.val
  omega

/-- The masked absolute differences of the block: |target·mask − gathered·mask|. -/
def absdiff (v41 : Vec Ideal S1x128x1024 .f32) (v43 : Vec Ideal S1x1x1024 .f32) (v48 : Vec Ideal S128x1024 .f32) :
    FVec Ideal S128x1024 .f32 :=
  absf (subf (mulf (shapeCast S128x1024 v41 shapeCasts_S1x128x1024_S128x1024) (maskRows v43)) (mulf v48 (maskRows v43)))

/-- One of them. -/
theorem absdiff_apply (v41 : Vec Ideal S1x128x1024 .f32) (v43 : Vec Ideal S1x1x1024 .f32) (v48 : Vec Ideal S128x1024 .f32)
    (p : Fin 128) (q : Fin 1024) :
    absdiff v41 v43 v48 (ix2 p q)
      = max (v41 (ix3 (0 : Fin 1) p q) * v43 (ix3 (0 : Fin 1) (0 : Fin 1) q) - v48 (ix2 p q) * v43 (ix3 (0 : Fin 1) (0 : Fin 1) q))
          (-(v41 (ix3 (0 : Fin 1) p q) * v43 (ix3 (0 : Fin 1) (0 : Fin 1) q) - v48 (ix2 p q) * v43 (ix3 (0 : Fin 1) (0 : Fin 1) q))) := by
  have h : ∀ x : FVec Ideal S128x1024 .f32, absf x (ix2 p q) = max (x (ix2 p q)) (-(x (ix2 p q))) := fun _ => rfl
  unfold absdiff
  rw [h, subf_apply, mulf_apply, mulf_apply, maskRows_apply, shapeCast_1ab_ab_apply]

/-- A sum over the 1024 lanes, read at channel p. -/
theorem laneSum_apply (x : FVec Ideal S128x1024 .f32) (h : S128x1024.Reduces [1] S128) (hφ : FKind.Formats .f32)
    (hacc : (0x00000000#32 : BitVec 32) = FKind.add.neutral .f32 hφ) (p : Fin 128) :
    multiReduction (F := Ideal) .add [1] S128 x 0x00000000#32 h hφ hacc (ix1 p) = ∑ q : Fin 1024, x (ix2 p q) := by
  refine (Ideal.multiReduction_add_single x 0x00000000#32 h hφ hacc (ix1 p)).trans ?_
  refine Finset.sum_congr rfl fun q _ => congrArg x ?_
  funext a
  match a with
  | ⟨0, _⟩ => exact Fin.ext rfl
  | ⟨1, _⟩ => exact Fin.ext rfl

/-- A [1, 128, 1] index is its middle coordinate. -/
def colEquiv : S1x128x1.Idx ≃ Fin 128 where
  toFun i := i 1
  invFun p := ix3 (0 : Fin 1) p (0 : Fin 1)
  left_inv i := by
    funext a
    match a with
    | ⟨0, _⟩ => exact Fin.ext (by show 0 = (i 0).val; have h : (i 0).val < 1 := (i 0).isLt; omega)
    | ⟨1, _⟩ => rfl
    | ⟨2, _⟩ => exact Fin.ext (by show 0 = (i 2).val; have h : (i 2).val < 1 := (i 2).isLt; omega)
  right_inv _ := rfl

/-- A sum over both axes of a [1, 128, 1] column into one element: the sum over the 128 channels. -/
theorem colSum_apply (x : FVec Ideal S1x128x1 .f32) (h : S1x128x1.Reduces [1, 2] S1) (hφ : FKind.Formats .f32)
    (hacc : (0x00000000#32 : BitVec 32) = FKind.add.neutral .f32 hφ) (j : S1.Idx) :
    multiReduction (F := Ideal) .add [1, 2] S1 x 0x00000000#32 h hφ hacc j
      = ∑ p : Fin 128, x (ix3 (0 : Fin 1) p (0 : Fin 1)) := by
  refine (Ideal.multiReduction_add_total x 0x00000000#32 h (fun b => ?_) hφ hacc j).trans ?_
  · match b with
    | ⟨0, _⟩ => rfl
  · exact (Equiv.sum_comp colEquiv.symm x).symm

/-- The one element of a [1] vector that is constant, extracted after a cast to [1, 1, 1]. -/
theorem extract_of_const (f : FVec Ideal S1 .f32) (c : EReal) (hf : ∀ j, f j = c) (h : S1.ShapeCasts S1x1x1)
    (hp : ∀ a, (![0, 0, 0] : Fin 3 → Nat) a < S1x1x1.size a) :
    extractAt ![0, 0, 0] (shapeCast S1x1x1 f h) hp = c := hf _

/-- The last tile's output: the masked absolute differences summed over the 1024 positions and the 128 channels, on every
    lane. -/
theorem pay2_apply (v41 : Vec Ideal S1x128x1024 .f32) (v43 : Vec Ideal S1x1x1024 .f32) (v48 : Vec Ideal S128x1024 .f32)
    (y : S1x1x128.Idx) :
    k0_pay2 (F := Ideal) v41 v43 v48 y = ∑ p : Fin 128, ∑ q : Fin 1024,
      max (v41 (ix3 (0 : Fin 1) p q) * v43 (ix3 (0 : Fin 1) (0 : Fin 1) q) - v48 (ix2 p q) * v43 (ix3 (0 : Fin 1) (0 : Fin 1) q))
        (-(v41 (ix3 (0 : Fin 1) p q) * v43 (ix3 (0 : Fin 1) (0 : Fin 1) q) - v48 (ix2 p q) * v43 (ix3 (0 : Fin 1) (0 : Fin 1) q))) := by
  have e : k0_pay2 (F := Ideal) v41 v43 v48 y
      = extractAt ![0, 0, 0] (shapeCast S1x1x1 (multiReduction (F := Ideal) .add [1, 2] S1
          (shapeCast S1x128x1 (shapeCast S128x1
            (multiReduction (F := Ideal) .add [1] S128 (absdiff v41 v43 v48) 0x00000000#32 reduces_S128x1024_S128 (.inl rfl) rfl)
            shapeCasts_S128_S128x1) shapeCasts_S128x1_S1x128x1)
          0x00000000#32 reduces_S1x128x1_S1 (.inl rfl) rfl) shapeCasts_S1_S1x1x1) inpos_S1x1x1_p0_0_0 := rfl
  rw [e]
  refine extract_of_const _ _ (fun j => ?_) _ _
  refine (colSum_apply _ _ _ _ j).trans ?_
  refine Finset.sum_congr rfl fun p _ => ?_
  rw [shapeCast_ab_1ab_apply]
  refine (shapeCast_apply _ _ (ix2 p (0 : Fin 1)) (ix1 p) ?_).trans ?_
  · rw [Shape.rowMajor_val_one, Shape.rowMajor_val_two]
    show p.val = p.val * 1 + 0
    omega
  refine (laneSum_apply _ _ _ _ p).trans ?_
  exact Finset.sum_congr rfl fun q _ => absdiff_apply v41 v43 v48 p q

end Cert.KernelIdeal.Payload

end
-- ==== Proof.KTail.lean ====
/-
  The lines after the region. The region leaves a 32 × 1 × 128 array whose row b holds sample b's numerator in
  every lane; the host takes lane 0 of every row, sums the 32 numerators, and divides by the mask's total weight
  times 128 plus ε, times the unit loss weight. Here: the result scalar as that one function of the array the
  region leaves and of the mask — for any float instance — and, over the extended reals, as sums.
-/
import proofs.«429631_j50156628083336_3_alg».proof.Proof.Gen.KernelIdeal.Frame
import proofs.«429631_j50156628083336_3_alg».proof.Proof.Spec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.KernelIdeal.Tail

open Cert.KernelIdeal Cert.KernelIdeal.Gen Idealize.ShloMosaic.ValueIdx

variable {F : FTy → Type} [FloatOps F]
variable (m : (ℓ : Loc nD τ sig) → Buf (Elt F) ℓ)

/-- The host lines after the region, applied to the array the region leaves and to the mask. -/
def tailF (N3 : Vec F S32x1x128 .f32) (mk : Vec F S32x1024 .f32) : Vec F S_ .f32 :=
  mulf (Host.divf
      (Host.reduceAdd (shapeCast S32 (extractStridedSlice S32x1x1 ![0, 0, 0] N3 Facts₀.slices_S32x1x128_S32x1x1_0_0_0)
          Facts₀.shapeCasts_S32x1x1_S32) (constant (F := F) S_ .f32 0x00000000#32) Facts₀.reducesTo_S32_S_d0 Facts₀.h_S_)
      (addf (mulf (Host.reduceAdd mk (constant (F := F) S_ .f32 0x00000000#32) Facts₀.reducesTo_S32x1024_S_d0_1 Facts₀.h_S_)
          (constant (F := F) S_ .f32 0x43000000#32)) (constant (F := F) S_ .f32 0x3727C5AC#32)))
    (constant (F := F) S_ .f32 0x3F800000#32)

/-- The result buffer after the run is that function of the output array after the region and the mask as launched. -/
theorem result_eq (c : Dev nD) :
    Pipeline.afterTail₀ cfgs (dats m) 0 (V0 m) [hostOps1] c main_v11
      = tailF ((dats m 0 c).arrAt 4 cfg0.N) (m ((c : Thread nD τ).loc main_arg3)) := by
  unfold Pipeline.afterTail₀
  show StableHlo.after hostOps1 _ (Proc.devRef .tc main_v11) = _
  after_results
  have e3 : Pipeline.withArrays (cfgs 0).spec c (V0 m c) (fun w => (dats m 0 c).arrAt w (cfgs 0).N) (Proc.devRef .tc main_v3)
      = (dats m 0 c).arrAt 4 cfg0.N :=
    Pipeline.withArrays_arr spec0 launch0.win.arr_inj c _ _ 4
  have e4 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [e3, e4]
  rfl

/-! ## Over the extended reals -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- Lane 0 of row b of the array, taken and flattened: entry b of the vector of numerators. -/
theorem lane0_apply (N3 : Vec Ideal S32x1x128 .f32) (b : Fin 32) :
    shapeCast S32 (extractStridedSlice S32x1x1 ![0, 0, 0] N3 Facts₀.slices_S32x1x128_S32x1x1_0_0_0) Facts₀.shapeCasts_S32x1x1_S32 (ix1 b)
      = N3 (ix3 b (0 : Fin 1) (0 : Fin 128)) := by
  rw [shapeCast_apply _ Facts₀.shapeCasts_S32x1x1_S32 (ix1 b) (ix3 b (0 : Fin 1) (0 : Fin 1)) (by
    rewrite [Shape.rowMajor_val_three, Shape.rowMajor_val_one]
    show (b.val * 1 + 0) * 1 + 0 = b.val; omega)]
  exact extractStridedSlice_apply _ _ _ _ _ (fun a => by
    match a with
    | ⟨0, _⟩ => show b.val = 0 + b.val; omega
    | ⟨1, _⟩ => rfl
    | ⟨2, _⟩ => rfl)

/-- The loss the lines after the region make of an array whose row b holds `nb b` in lane 0, and of the mask. -/
theorem tail_val (N3 : Vec Ideal S32x1x128 .f32) (mk : Vec Ideal S32x1024 .f32) (nb : Fin 32 → EReal)
    (hN : ∀ b : Fin 32, N3 (ix3 b (0 : Fin 1) (0 : Fin 128)) = nb b) (i : S_.Idx) :
    tailF (F := Ideal) N3 mk i
      = Ideal.div (∑ b : Fin 32, nb b)
          ((∑ b : Fin 32, ∑ q : Fin 1024, mk (ix2 b q)) * Ideal.ofBits .f32 0x43000000#32 + Ideal.ofBits .f32 0x3727C5AC#32)
        * Ideal.ofBits .f32 0x3F800000#32 := by
  unfold tailF
  simp only [mulf, addf, Host.divf, Host.reduceAdd, constant, Ideal.mulf_def, Ideal.addf_def, Ideal.hostDivf_def,
    Ideal.hostReduceAdd_def, Ideal.ofBits_def]
  rw [Ideal.hostReduceAdd_total Facts₀.reducesTo_S32_S_d0 (fun b => b.elim0),
    Ideal.hostReduceAdd_total Facts₀.reducesTo_S32x1024_S_d0_1 (fun b => b.elim0),
    sum_idx1, sum_idx2, Ideal.ofBits_zero_f32, zero_add, zero_add]
  refine congrArg (· * _) (congrArg (fun z => Ideal.div z _) ?_)
  exact Finset.sum_congr rfl fun a _ => (lane0_apply N3 a).trans (hN a)

end Cert.KernelIdeal.Tail

end
-- ==== Proof.KFinal.lean ====
/-
  The kernel's value over the extended reals: the array the region leaves, and the run.

  At the first tile of sample b the accumulator ends at 0 + (the first tile's selector sum); at the second tile
  that plus the second tile's selector sum. The two selector sums together are the specification's pick: the
  flattened prediction at the position the word names (0 for a word that names no position). The output block
  written at the second tile is then sample b's numerator in every lane; it is written back at exactly the odd
  points, and the 32 blocks written back cover the 32 × 1 × 128 array, whose row b therefore ends at sample b's
  numerator. The lines after the region make the loss of it.
-/
import proofs.«429631_j50156628083336_3_alg».proof.Proof.KPieces
import proofs.«429631_j50156628083336_3_alg».proof.Proof.KBlocks
import proofs.«429631_j50156628083336_3_alg».proof.Proof.KPayload
import proofs.«429631_j50156628083336_3_alg».proof.Proof.KTail
import proofs.«429631_j50156628083336_3_alg».proof.Proof.Spec

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx
open Cert.Spec Cert.KernelIdeal.Pieces Cert.KernelIdeal.Blocks Cert.KernelIdeal.Payload Cert.KernelIdeal.Tail

/-! ## The two tiles' selector sums are the pick -/

/-- The selector sum of tile s (s = 0 or 1) of a row of 25600 entries picks the entry at v when v lies in the tile. -/
theorem sel_tile (y : Fin 25600 → EReal) (s : ℕ) (hs : s < 2) (v : ℕ) :
    sel (fun j : Fin 12800 => y ⟨12800 * s + j.val, by have := j.isLt; omega⟩) (12800 * s) v
      = if h : 12800 * s ≤ v ∧ v < 12800 * s + 12800 then y ⟨v, by omega⟩ else 0 := by
  unfold sel
  split
  · next h => exact congrArg y (Fin.ext (by show 12800 * s + (v - 12800 * s) = v; omega))
  · rfl

/-- Zero, plus the first tile's sum, plus the second tile's sum, is the entry at v (0 when v is no position). -/
theorem sel_two_tiles (y : Fin 25600 → EReal) (v : ℕ) :
    (0 + sel (fun j : Fin 12800 => y ⟨12800 * 0 + j.val, by have := j.isLt; omega⟩) (12800 * 0) v)
        + sel (fun j : Fin 12800 => y ⟨12800 * 1 + j.val, by have := j.isLt; omega⟩) (12800 * 1) v
      = if h : v < 25600 then y ⟨v, h⟩ else 0 := by
  rw [sel_tile y 0 (by omega) v, sel_tile y 1 (by omega) v]
  by_cases h0 : v < 12800
  · rw [dif_pos ⟨by omega, by omega⟩, dif_neg (by omega), dif_pos (by omega), zero_add, add_zero]
  · by_cases h1 : v < 25600
    · rw [dif_neg (by omega), dif_pos ⟨by omega, by omega⟩, dif_pos h1, zero_add, zero_add]
    · rw [dif_neg (by omega), dif_neg (by omega), dif_neg h1, zero_add, zero_add]

/-! ## The accumulator after each case, over the extended reals -/

/-- Word q of a 512-word half that starts at word c0 is word c0 + q of the block. -/
theorem words_idx (c0 : ℕ) (inb : ∀ a, (![0, c0, 0] : Fin 3 → ℕ) a + S1x512x1.size a ≤ S1x1024x1.size a)
    (q' : Fin 512) (h : c0 + q'.val < 1024) :
    (Rect.unit (s := S1x1024x1) ![0, c0, 0] S1x512x1.size inb).idx (ix3 (0 : Fin 1) q' (0 : Fin 1))
      = ix3 (0 : Fin 1) ⟨c0 + q'.val, h⟩ (0 : Fin 1) := by
  funext a
  apply Fin.ext
  match a with
  | ⟨0, _⟩ => show 0 + 1 * 0 = 0; omega
  | ⟨1, _⟩ => show c0 + 1 * q'.val = c0 + q'.val; omega
  | ⟨2, _⟩ => show 0 + 1 * 0 = 0; omega

section Cases
variable (c : Dev nD) (i : grid0.Coords) (arg2 : Memref sig .tc .vmem S1x128x12800 .f32) (harg2 : arg2.IsWhole) (arg3 : Memref sig .tc .vmem S1x1024x1 .i32) (harg3 : arg3.IsWhole) (arg4 : Memref sig .tc .vmem S1x1x1024 .f32) (harg4 : arg4.IsWhole) (arg5 : Memref sig .tc .vmem S1x128x1024 .f32) (harg5 : arg5.IsWhole) (arg6 : Memref sig .tc .vmem S1x1x128 .f32) (harg6 : arg6.IsWhole) (arg7 : Memref sig .tc .vmem S128x1024 .f32) (harg7 : arg7.IsWhole)

/-- After a tile that starts a sample: 0 plus the tile's selector sum, in every column. -/
theorem scrA_val (hc0 : cond0_0 i) (hc1 : ¬cond0_1 i)
    (x0 : Vec Ideal S1x128x12800 .f32) (x1 : Vec Ideal S1x1024x1 .i32) (x2 : Vec Ideal S1x1x1024 .f32) (x3 : Vec Ideal S1x128x1024 .f32)
    (p : Fin 128) (q : Fin 1024) :
    sout0_A_0 (F := Ideal) c i arg2 harg2 arg3 harg3 arg4 harg4 arg5 harg5 arg6 harg6 arg7 harg7 hc0 hc1 x0 x1 x2 x3 (ix2 p q)
      = 0 + sel (fun j : Fin 12800 => x0 (ix3 (0 : Fin 1) p j)) (12800 * (i 1).val) (x1 (ix3 (0 : Fin 1) q (0 : Fin 1))).toNat := by
  have hq := q.isLt
  rw [scrA_apply]
  split
  · next h =>
    rw [pay6_apply]
    congr 1
    · show k0_pay3 (F := Ideal) _ = 0
      exact pay3_apply _
    · congr 2
      exact congrArg x1 ((words_idx 0 _ ⟨q.val, h⟩ (by show 0 + q.val < 1024; omega)).trans
        (by congr 1; apply Fin.ext; show 0 + q.val = q.val; omega))
  · next h =>
    rw [pay7_apply]
    congr 1
    · show k0_pay3 (F := Ideal) _ = 0
      exact pay3_apply _
    · congr 2
      exact congrArg x1 ((words_idx 512 _ ⟨q.val - 512, by omega⟩ (by show 512 + (q.val - 512) < 1024; omega)).trans
        (by congr 1; apply Fin.ext; show 512 + (q.val - 512) = q.val; omega))

/-- After a later tile: what the tile before left plus this tile's selector sum, in every column. -/
theorem scrB_val (hc0 : ¬cond0_0 i) (hc1 : cond0_1 i)
    (x0 : Vec Ideal S1x128x12800 .f32) (x1 : Vec Ideal S1x1024x1 .i32) (x2 : Vec Ideal S1x1x1024 .f32) (x3 : Vec Ideal S1x128x1024 .f32)
    (xs0 : Vec Ideal S128x1024 .f32) (p : Fin 128) (q : Fin 1024) :
    sout0_B_0 (F := Ideal) c i arg2 harg2 arg3 harg3 arg4 harg4 arg5 harg5 arg6 harg6 arg7 harg7 hc0 hc1 x0 x1 x2 x3 xs0 (ix2 p q)
      = xs0 (ix2 p q) + sel (fun j : Fin 12800 => x0 (ix3 (0 : Fin 1) p j)) (12800 * (i 1).val) (x1 (ix3 (0 : Fin 1) q (0 : Fin 1))).toNat := by
  have hq := q.isLt
  rw [scrB_apply]
  split
  · next h =>
    rw [pay6_apply]
    congr 1
    · exact congrArg xs0 ((half_idx 0 _ p ⟨q.val, h⟩ (by show 0 + q.val < 1024; omega)).trans
        (by congr 1; apply Fin.ext; show 0 + q.val = q.val; omega))
    · congr 2
      exact congrArg x1 ((words_idx 0 _ ⟨q.val, h⟩ (by show 0 + q.val < 1024; omega)).trans
        (by congr 1; apply Fin.ext; show 0 + q.val = q.val; omega))
  · next h =>
    rw [pay7_apply]
    congr 1
    · exact congrArg xs0 ((half_idx 512 _ p ⟨q.val - 512, by omega⟩ (by show 512 + (q.val - 512) < 1024; omega)).trans
        (by congr 1; apply Fin.ext; show 512 + (q.val - 512) = q.val; omega))
    · congr 2
      exact congrArg x1 ((words_idx 512 _ ⟨q.val - 512, by omega⟩ (by show 512 + (q.val - 512) < 1024; omega)).trans
        (by congr 1; apply Fin.ext; show 512 + (q.val - 512) = q.val; omega))

end Cases

/-! ## Sample b's two points -/

section Points
variable (m : (ℓ : Loc nD τ sig) → Buf (Elt Ideal) ℓ) (ρ : Dev nD → PrngReg)

/-- The arguments as the arrays the specification is stated over. -/
abbrev tgtOf (c : Dev nD) : STg.Idx → EReal := m ((c : Thread nD τ).loc main_arg1)
abbrev wordsOf (c : Dev nD) : SIx.Idx → BitVec 32 := m ((c : Thread nD τ).loc main_arg2)
abbrev maskOf (c : Dev nD) : SIx.Idx → EReal := m ((c : Thread nD τ).loc main_arg3)
/-- The flattened prediction the region finds. -/
abbrev predOf (c : Dev nD) : SPf.Idx → EReal := predArr m c

/-- Word (b, q, 0) of the column array is word (b, q). -/
theorem wordArr_at (c : Dev nD) (b : Fin 32) (q : Fin 1024) :
    wordArr m c (ix3 b q (0 : Fin 1)) = wordsOf m c (ix2 b q) := by
  rw [wordArr_eq]
  exact shapeCast_apply _ _ _ _ (by
    show ((S32x1024.rowMajor (ix2 b q) : Fin _) : ℕ) = ((S32x1024x1.rowMajor (ix3 b q (0 : Fin 1)) : Fin _) : ℕ)
    rewrite [Shape.rowMajor_val_two, Shape.rowMajor_val_three]
    show b.val * 1024 + q.val = (b.val * 1024 + q.val) * 1 + 0; omega)

/-- Weight (b, 0, q) of the row array is weight (b, q). -/
theorem maskArr_at (c : Dev nD) (b : Fin 32) (q : Fin 1024) :
    maskArr m c (ix3 b (0 : Fin 1) q) = maskOf m c (ix2 b q) := by
  rw [maskArr_eq]
  exact shapeCast_apply _ _ _ _ (by
    show ((S32x1024.rowMajor (ix2 b q) : Fin _) : ℕ) = ((S32x1x1024.rowMajor (ix3 b (0 : Fin 1) q) : Fin _) : ℕ)
    rewrite [Shape.rowMajor_val_two, Shape.rowMajor_val_three]
    show b.val * 1024 + q.val = (b.val * 1 + 0) * 1024 + q.val; omega)

/-- Sample b's first and second point. -/
abbrev tE (b : Fin 32) : Fin cfg0.N := ⟨2 * b.val, by rw [show cfg0.N = 64 from N_0]; have := b.isLt; omega⟩
abbrev tO (b : Fin 32) : Fin cfg0.N := ⟨2 * b.val + 1, by rw [show cfg0.N = 64 from N_0]; have := b.isLt; omega⟩

theorem sel_congr {n : ℕ} (x x' : Fin n → EReal) (base v v' : ℕ) (hx : ∀ j, x j = x' j) (hv : v = v') :
    sel x base v = sel x' base v' := by
  obtain rfl : x = x' := funext hx
  rw [hv]

/-- The blocks of point t of sample b, tile s, as entries of the arrays. -/
theorem predBlk_at (c : Dev nD) (t : Fin cfg0.N) (b : Fin 32) (s : ℕ) (hb : t.val / 2 = b.val) (hs : t.val % 2 = s) (hs2 : s < 2)
    (p : Fin 128) (j : Fin 12800) :
    predBlk m c t (ix3 (0 : Fin 1) p j) = predArr m c (ix3 b p ⟨12800 * s + j.val, by have := j.isLt; omega⟩) := by
  rw [predBlk_apply]
  congr 1
  funext a
  match a with
  | ⟨0, _⟩ => exact Fin.ext hb
  | ⟨1, _⟩ => rfl
  | ⟨2, _⟩ => exact Fin.ext (by show 12800 * (t.val % 2) + j.val = 12800 * s + j.val; rw [hs])

theorem wordBlk_at (c : Dev nD) (t : Fin cfg0.N) (b : Fin 32) (hb : t.val / 2 = b.val) (q : Fin 1024) :
    wordBlk m c t (ix3 (0 : Fin 1) q (0 : Fin 1)) = wordsOf m c (ix2 b q) := by
  rw [wordBlk_apply, ← wordArr_at]
  congr 1
  funext a
  match a with
  | ⟨0, _⟩ => exact Fin.ext hb
  | ⟨1, _⟩ => rfl
  | ⟨2, _⟩ => rfl

theorem maskBlk_at (c : Dev nD) (t : Fin cfg0.N) (b : Fin 32) (hb : t.val / 2 = b.val) (q : Fin 1024) :
    maskBlk m c t (ix3 (0 : Fin 1) (0 : Fin 1) q) = maskOf m c (ix2 b q) := by
  rw [maskBlk_apply, ← maskArr_at]
  congr 1
  funext a
  match a with
  | ⟨0, _⟩ => exact Fin.ext hb
  | ⟨1, _⟩ => rfl
  | ⟨2, _⟩ => rfl

theorem tgtBlk_at (c : Dev nD) (t : Fin cfg0.N) (b : Fin 32) (hb : t.val / 2 = b.val) (p : Fin 128) (q : Fin 1024) :
    tgtBlk m c t (ix3 (0 : Fin 1) p q) = tgtOf m c (ix3 b p q) := by
  rw [tgtBlk_apply, tgtArr_eq]
  congr 1
  funext a
  match a with
  | ⟨0, _⟩ => exact Fin.ext hb
  | ⟨1, _⟩ => rfl
  | ⟨2, _⟩ => rfl

theorem outsAt0_congr (c : Dev nD) (n n' : ℕ) (h : n < cfg0.N) (h' : n' < cfg0.N) (e : n = n') :
    outsAt0 m c n h = outsAt0 m c n' h' := by
  subst e; rfl

/-- After sample b's first point the accumulator holds 0 plus the first tile's selector sum. -/
theorem acc_even (c : Dev nD) (b : Fin 32) (p : Fin 128) (q : Fin 1024) :
    (outsAt0 m c (tE b).val (tE b).isLt).2 (ix2 p q)
      = 0 + sel (fun j : Fin 12800 => predArr m c (ix3 b p ⟨12800 * 0 + j.val, by have := j.isLt; omega⟩)) (12800 * 0)
          (wordsOf m c (ix2 b q)).toNat := by
  have h0 : (tE b).val % 2 = 0 := by show 2 * b.val % 2 = 0; omega
  have h1 : ¬(tE b).val % 2 = 1 := by omega
  have hb : (tE b).val / 2 = b.val := by show 2 * b.val / 2 = b.val; omega
  rw [outsAt0_A m c (tE b) h0 h1]
  dsimp only
  refine (scrA_val c (grid0.coords (tE b)) (ms0_0 (tE b)) (hs0_0 (tE b)) (ms0_1 (tE b)) (hs0_1 (tE b)) (ms0_2 (tE b)) (hs0_2 (tE b)) (ms0_3 (tE b)) (hs0_3 (tE b)) (ms0_4 (tE b)) (hs0_4 (tE b)) scM0_0 (Memref.isWhole_whole _) ((hcond0_0 (tE b)).mpr h0) (fun h => h1 ((hcond0_1 (tE b)).mp h))
    (predBlk m c (tE b)) (wordBlk m c (tE b)) (maskBlk m c (tE b)) (tgtBlk m c (tE b)) p q).trans ?_
  rw [tile (tE b), h0]
  exact congrArg (0 + ·) (sel_congr _ _ _ _ _ (fun j => predBlk_at m c (tE b) b 0 hb h0 (by omega) p j) (congrArg BitVec.toNat (wordBlk_at m c (tE b) b hb q)))

/-- After sample b's second point the accumulator holds the flattened prediction at the positions the words name. -/
theorem acc_odd (c : Dev nD) (b : Fin 32) (p : Fin 128) (q : Fin 1024) :
    (outsAt0 m c (tO b).val (tO b).isLt).2 (ix2 p q) = pick (predOf m c) (wordsOf m c) b p q := by
  have h0 : ¬(tO b).val % 2 = 0 := by show ¬(2 * b.val + 1) % 2 = 0; omega
  have h1 : (tO b).val % 2 = 1 := by show (2 * b.val + 1) % 2 = 1; omega
  have hb : (tO b).val / 2 = b.val := by show (2 * b.val + 1) / 2 = b.val; omega
  rw [outsAt0_B m c (tO b) h0 h1]
  dsimp only
  refine (scrB_val c (grid0.coords (tO b)) (ms0_0 (tO b)) (hs0_0 (tO b)) (ms0_1 (tO b)) (hs0_1 (tO b)) (ms0_2 (tO b)) (hs0_2 (tO b)) (ms0_3 (tO b)) (hs0_3 (tO b)) (ms0_4 (tO b)) (hs0_4 (tO b)) scM0_0 (Memref.isWhole_whole _) (fun h => h0 ((hcond0_0 (tO b)).mp h)) ((hcond0_1 (tO b)).mpr h1)
    (predBlk m c (tO b)) (wordBlk m c (tO b)) (maskBlk m c (tO b)) (tgtBlk m c (tO b))
    (outsAt0 m c ((tO b).val - 1) (Nat.lt_of_le_of_lt (Nat.sub_le _ _) (tO b).isLt)).2 p q).trans ?_
  rw [outsAt0_congr m c ((tO b).val - 1) (tE b).val _ (tE b).isLt (by show 2 * b.val + 1 - 1 = 2 * b.val; omega), acc_even m c b p q,
    tile (tO b), h1]
  rw [sel_congr _ _ _ _ _ (fun j => predBlk_at m c (tO b) b 1 hb h1 (by omega) p j) (congrArg BitVec.toNat (wordBlk_at m c (tO b) b hb q))]
  exact sel_two_tiles (fun j => predArr m c (ix3 b p j)) (wordsOf m c (ix2 b q)).toNat

/-- The output block written at sample b's second point holds the sample's numerator in every lane. -/
theorem out_odd (c : Dev nD) (b : Fin 32) (y : S1x1x128.Idx) :
    (outsAt0 m c (tO b).val (tO b).isLt).1 y = numerAt (predOf m c) (tgtOf m c) (wordsOf m c) (maskOf m c) b := by
  have h0 : ¬(tO b).val % 2 = 0 := by show ¬(2 * b.val + 1) % 2 = 0; omega
  have h1 : (tO b).val % 2 = 1 := by show (2 * b.val + 1) % 2 = 1; omega
  have hb : (tO b).val / 2 = b.val := by show (2 * b.val + 1) / 2 = b.val; omega
  have hacc := fun p q => acc_odd m c b p q
  rw [outsAt0_B m c (tO b) h0 h1] at hacc ⊢
  dsimp only at hacc ⊢
  refine (congrFun (outB_eq c (grid0.coords (tO b)) (ms0_0 (tO b)) (hs0_0 (tO b)) (ms0_1 (tO b)) (hs0_1 (tO b)) (ms0_2 (tO b)) (hs0_2 (tO b)) (ms0_3 (tO b)) (hs0_3 (tO b)) (ms0_4 (tO b)) (hs0_4 (tO b)) scM0_0 (Memref.isWhole_whole _) (fun h => h0 ((hcond0_0 (tO b)).mp h)) ((hcond0_1 (tO b)).mpr h1)
    (predBlk m c (tO b)) (wordBlk m c (tO b)) (maskBlk m c (tO b)) (tgtBlk m c (tO b))
    (outsAt0 m c ((tO b).val - 1) (Nat.lt_of_le_of_lt (Nat.sub_le _ _) (tO b).isLt)).2) y).trans ?_
  rw [pay2_apply]
  unfold numerAt term
  refine Finset.sum_congr rfl fun p _ => Finset.sum_congr rfl fun q _ => ?_
  rw [hacc p q, tgtBlk_at m c (tO b) b hb p q, maskBlk_at m c (tO b) b hb q]

end Points

/-! ## The array the region leaves, and the run -/

section Run
variable (m : (ℓ : Loc nD τ sig) → Buf (Elt Ideal) ℓ) (ρ : Dev nD → PrngReg)

/-- Row b of the 32 × 1 × 128 array: sample b's numerator in every lane. -/
def outArr (c : Dev nD) : Vec Ideal S32x1x128 .f32 :=
  fun i => numerAt (predOf m c) (tgtOf m c) (wordsOf m c) (maskOf m c) ⟨(i 0).val, (i 0).isLt⟩

/-- The output window's blocks are whole 1 × 1 × 128 rows (decided over the 64 points). -/
theorem xsize4 : ∀ t : Fin cfg0.N, win0_4.xsize (grid0.coords t) 0 = 1 ∧ win0_4.xsize (grid0.coords t) 1 = 1
      ∧ win0_4.xsize (grid0.coords t) 2 = 128 :=
  (by decide +kernel : ∀ t : Fin grid0.N, win0_4.xsize (grid0.coords t) 0 = 1 ∧ win0_4.xsize (grid0.coords t) 1 = 1
      ∧ win0_4.xsize (grid0.coords t) 2 = 128)

/-- What a write-back writes — it happens at the odd points only — is its row of that array. -/
theorem flushed_eq (c : Dev nD) (t : Fin cfg0.N) (hf : (cfg0.win 4).flush t = true) :
    (dats m 0 c).flushed 4 t = ((cfg0.win 4).blk t).view.read (Elt Ideal) (outArr m c) := by
  have h1 : t.val % 2 = 1 := (flush0_4 t).mp hf
  have hN := lt64 t
  obtain ⟨b, rfl⟩ : ∃ b : Fin 32, t = tO b :=
    ⟨⟨t.val / 2, by omega⟩, Fin.ext (by show t.val = 2 * (t.val / 2) + 1; omega)⟩
  show (cfg0.win 4).cut (grid0.coords (tO b)) ((dats m 0 c).after 4 (tO b)) = _
  rw [after0_4]
  funext y
  refine (out_odd m c b _).trans ?_
  rw [View.read_apply]
  show numerAt _ _ _ _ b = outArr m c _
  unfold outArr
  congr 1
  apply Fin.ext
  have hy : (y 0).val < 1 := (y 0).isLt
  show b.val = win0_4.index (tO b) 0 * 1 + 1 * (y 0).val
  rw [(index4 (tO b)).1]
  show b.val = (2 * b.val + 1) / 2 * 1 + 1 * (y 0).val
  omega

/-- Every row is written back at its sample's second point. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 32 := (i 0).isLt
  have h1 : (i 1 : Nat) < 1 := (i 1).isLt
  have h2 : (i 2 : Nat) < 128 := (i 2).isLt
  refine ⟨tO ⟨(i 0).val, h0⟩, (flush0_4 _).mpr (by show (2 * (i 0).val + 1) % 2 = 1; omega), ?_⟩
  show i ∈ ((View.whole main_v3).slice (win0_4.rect (tO ⟨(i 0).val, h0⟩))).set
  rw [View.set_slice_whole, Rect.mem_set_unit]
  intro a
  match a with
  | ⟨0, _⟩ =>
    show win0_4.index (tO ⟨(i 0).val, h0⟩) 0 * win0_4.size 0 ≤ (i 0 : Nat)
      ∧ (i 0 : Nat) < win0_4.index (tO ⟨(i 0).val, h0⟩) 0 * win0_4.size 0 + win0_4.xsize (grid0.coords (tO ⟨(i 0).val, h0⟩)) 0
    rw [(index4 _).1, (xsize4 _).1, show win0_4.size 0 = 1 from rfl]
    show (2 * (i 0).val + 1) / 2 * 1 ≤ (i 0 : Nat) ∧ (i 0 : Nat) < (2 * (i 0).val + 1) / 2 * 1 + 1
    omega
  | ⟨1, _⟩ =>
    show win0_4.index (tO ⟨(i 0).val, h0⟩) 1 * win0_4.size 1 ≤ (i 1 : Nat)
      ∧ (i 1 : Nat) < win0_4.index (tO ⟨(i 0).val, h0⟩) 1 * win0_4.size 1 + win0_4.xsize (grid0.coords (tO ⟨(i 0).val, h0⟩)) 1
    rw [(index4 _).2.1, (xsize4 _).2.1]
    omega
  | ⟨2, _⟩ =>
    show win0_4.index (tO ⟨(i 0).val, h0⟩) 2 * win0_4.size 2 ≤ (i 2 : Nat)
      ∧ (i 2 : Nat) < win0_4.index (tO ⟨(i 0).val, h0⟩) 2 * win0_4.size 2 + win0_4.xsize (grid0.coords (tO ⟨(i 0).val, h0⟩)) 2
    rw [(index4 _).2.2, (xsize4 _).2.2]
    omega

/-- So the array ends with sample b's numerator in row b. -/
theorem final (c : Dev nD) : (dats m 0 c).arrAt 4 cfg0.N = outArr m c :=
  (dats m 0 c).arrAt_eq_of_cover 4 (outArr m c) (flushed_eq m c) (cover c)

/-- The result buffer after the run is the specification's loss of the arguments. -/
theorem result_val (c : Dev nD) (i : S_.Idx) :
    Pipeline.afterTail₀ cfgs (dats m) 0 (V0 m) [hostOps1] c main_v11 i
      = loss (predOf m c) (tgtOf m c) (wordsOf m c) (maskOf m c) := by
  rw [result_eq, final]
  exact tail_val (outArr m c) (m ((c : Thread nD τ).loc main_arg3))
    (numerAt (predOf m c) (tgtOf m c) (wordsOf m c) (maskOf m c)) (fun b => rfl) i

/-- THE RUN: every weakly fair execution of the kernel program terminates with the result at the specification's loss of
    the arguments, the arguments unchanged. -/
theorem run : θ_run defs (onTc (τ := τ) (main (F := Ideal))) ⟨m, fun _ => 0, ρ⟩ fun r => ∀ c : Dev nD,
      r.2.mem ((c.tc : Thread nD τ).loc main_v11) = (fun _ => loss (predOf m c) (tgtOf m c) (wordsOf m c) (maskOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v11 (Pipeline.mem_restRefs_of main_v11 (by decide) (by decide))).trans (funext fun i => result_val m c i),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Run

end Cert.KernelIdeal.Final

end
-- ==== Proof.lean ====
/-
  A masked L1 loss over gathered predictions: the kernel against its reference, over the extended reals.

  Both programs compute, from predictions pf (32 samples × 128 channels × 25600 flattened positions), targets
  (32 × 128 × 1024), position words idx (32 × 1024) and weights mask (32 × 1024),

      ( Σ_b Σ_p Σ_q | tgt[b,p,q]·mask[b,q] − pf[b,p,idx[b,q]]·mask[b,q] | ) / ( (Σ_b Σ_q mask[b,q])·128 + ε ) · 1 .

  The reference takes pf[b, idx[b,q], p] out of the transposed array (a take along the position axis: negative words
  wrapped, the result masked by a range test, the start clamped), which for a word in [0, 25600) is the entry the word
  names. The kernel never indexes: per sample it walks the two 12800-position tiles, forms for every word the 0/1
  selector of the tile's positions, and accumulates the products of the prediction tile with the selector; over the
  extended reals x·0 = 0 for every x, so the two tiles' sums add up to the entry the word names — for every word, and
  0 for a word that names no position. At a sample's second tile it sums the masked absolute differences over the
  1024 words and the 128 channels; the host sums the 32 samples and divides. Sums of extended reals may be taken in
  any order, so the kernel's nested sums and the reference's one sum agree.

  The precondition asks, beside finite float inputs, that every position word lie in [0, 25600): outside that range
  the reference's take yields its fill value or a wrapped entry while the selector sum yields 0. Finiteness is not
  used. The three frames are the generated ones (the reference's is its run with the result dropped); the
  idealization rewrote nothing, so it preserves trivially.
-/
import proofs.«429631_j50156628083336_3_alg».proof.Defs
import proofs.«429631_j50156628083336_3_alg».proof.Proof.Gen.Kernel
import proofs.«429631_j50156628083336_3_alg».proof.Proof.Gen.Kernel.Frame
import proofs.«429631_j50156628083336_3_alg».proof.Proof.Gen.KernelIdeal
import proofs.«429631_j50156628083336_3_alg».proof.Proof.Gen.KernelIdeal.Frame
import proofs.«429631_j50156628083336_3_alg».proof.Proof.Gen.ReferenceIdeal
import proofs.«429631_j50156628083336_3_alg».proof.Proof.Gen.Pre_finite_inputs
import proofs.«429631_j50156628083336_3_alg».proof.Proof.PreRange
import proofs.«429631_j50156628083336_3_alg».proof.Proof.RefValue
import proofs.«429631_j50156628083336_3_alg».proof.Proof.KFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both runs end at the specification's loss of the arguments: the kernel's for every word, the reference's because the
    precondition keeps every word a position. -/
theorem algebraic : Cert.algebraic_KernelIdeal_ReferenceIdeal := by
  intro m ρ m' ρ' hpre hagree
  refine ⟨fun c _ => Cert.Spec.loss (Cert.KernelIdeal.Final.predOf m c) (Cert.KernelIdeal.Final.tgtOf m c)
    (Cert.KernelIdeal.Final.wordsOf m c) (Cert.KernelIdeal.Final.maskOf m c), Cert.KernelIdeal.Final.run m ρ, ?_⟩
  refine (θ_run Cert.ReferenceIdeal.defs _ _).mono (fun _ h c => ⟨(h c).1.trans ?_, (h c).2⟩)
    (Cert.ReferenceIdeal.RunP.run (F := Ideal) m' ρ')
  have hidx : ∀ i, (m' ((c.tc : Thread Cert.ReferenceIdeal.nD Cert.ReferenceIdeal.τ).loc Cert.ReferenceIdeal.main_arg2) i).toNat < 25600 := by
    rw [(hagree c).2.2.1]
    exact Cert.PreRange.idx_lt_of_pre_ideal _ _ _ _ (hpre c)
  rw [Cert.ReferenceIdeal.ReadP.val_main_v17_eq]
  funext i
  rw [Cert.ReferenceIdeal.RefValue.loss_eq _ _ _ _ hidx i, (hagree c).1, (hagree c).2.1, (hagree c).2.2.1, (hagree c).2.2.2]
  show Cert.Spec.loss _ _ _ _ = Cert.Spec.loss (Cert.KernelIdeal.Blocks.predArr m c) _ _ _
  rw [Cert.KernelIdeal.Blocks.predArr_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
